-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S4x2048x128 : Shape := ⟨3, ![4, 2048, 128]⟩
abbrev S64x128 : Shape := ⟨2, ![64, 128]⟩
abbrev S64 : Shape := ⟨1, ![64]⟩
abbrev S64x64 : Shape := ⟨2, ![64, 64]⟩
abbrev S192x64 : Shape := ⟨2, ![192, 64]⟩
abbrev S192 : Shape := ⟨1, ![192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg7 : FVec F S192x64 .f32) (main_arg8 : FVec F S192 .f32) (main_arg9 : FVec F S192 .f32) (main_v33 : IVec S_ 1) : IVec S_ 1 :=
  let main_v34 : FVec F S192x64 .f32 := Host.absf main_arg7
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S192 .f32 := Host.absf main_arg8
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S192 .f32 := Host.absf main_arg9
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S192x64 .f32) (main_arg7 : FVec F S192x64 .f32) (main_arg8 : FVec F S192 .f32) (main_arg9 : FVec F S192 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg6
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x2048 .f32) (main_arg1 : FVec F S4x2048x128 .f32) (main_arg2 : FVec F S64x128 .f32) (main_arg3 : FVec F S64 .f32) (main_arg4 : FVec F S64x64 .f32) (main_arg5 : FVec F S64 .f32) (main_arg6 : FVec F S192x64 .f32) (main_arg7 : FVec F S192x64 .f32) (main_arg8 : FVec F S192 .f32) (main_arg9 : FVec F S192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S4x2048x2048 : Shape := ⟨3, ![4, 2048, 2048]⟩
abbrev S4x2048x128 : Shape := ⟨3, ![4, 2048, 128]⟩
abbrev S64x128 : Shape := ⟨2, ![64, 128]⟩
abbrev S64 : Shape := ⟨1, ![64]⟩
abbrev S64x64 : Shape := ⟨2, ![64, 64]⟩
abbrev S192x64 : Shape := ⟨2, ![192, 64]⟩
abbrev S192 : Shape := ⟨1, ![192]⟩
abbrev S64x1 : Shape := ⟨2, ![64, 1]⟩
abbrev S192x1 : Shape := ⟨2, ![192, 1]⟩
abbrev S4x64x2048 : Shape := ⟨3, ![4, 64, 2048]⟩
abbrev S1x2048x2048 : Shape := ⟨3, ![1, 2048, 2048]⟩
abbrev S1x2048x128 : Shape := ⟨3, ![1, 2048, 128]⟩
abbrev S1x64x2048 : Shape := ⟨3, ![1, 64, 2048]⟩
abbrev S2048x2048 : Shape := ⟨2, ![2048, 2048]⟩
abbrev S2048x128 : Shape := ⟨2, ![2048, 128]⟩
abbrev S64x2048 : Shape := ⟨2, ![64, 2048]⟩
abbrev S192x2048 : Shape := ⟨2, ![192, 2048]⟩
abbrev S4x2048x64 : Shape := ⟨3, ![4, 2048, 64]⟩
abbrev S8192x64 : Shape := ⟨2, ![8192, 64]⟩

abbrev nBuf : Space → Nat
  | .hbm => 17
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S4x2048x128, .f32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S192x64, .f32⟩
  | .hbm, ⟨7, _⟩ => ⟨S192x64, .f32⟩
  | .hbm, ⟨8, _⟩ => ⟨S192, .f32⟩
  | .hbm, ⟨9, _⟩ => ⟨S192, .f32⟩
  | .hbm, ⟨10, _⟩ => ⟨S64x1, .f32⟩
  | .hbm, ⟨11, _⟩ => ⟨S64x1, .f32⟩
  | .hbm, ⟨12, _⟩ => ⟨S192x1, .f32⟩
  | .hbm, ⟨13, _⟩ => ⟨S192x1, .f32⟩
  | .hbm, ⟨14, _⟩ => ⟨S4x64x2048, .f32⟩
  | .hbm, ⟨15, _⟩ => ⟨S4x2048x64, .f32⟩
  | .hbm, ⟨16, _⟩ => ⟨S8192x64, .f32⟩
  | .local _ .vmem, ⟨0, _⟩ => ⟨S1x2048x2048, .f32⟩
  | .local _ .vmem, ⟨1, _⟩ => ⟨S1x2048x2048, .f32⟩
  | .local _ .vmem, ⟨2, _⟩ => ⟨S1x2048x128, .f32⟩
  | .local _ .vmem, ⟨3, _⟩ => ⟨S1x2048x128, .f32⟩
  | .local _ .vmem, ⟨4, _⟩ => ⟨S64x128, .f32⟩
  | .local _ .vmem, ⟨5, _⟩ => ⟨S64x1, .f32⟩
  | .local _ .vmem, ⟨6, _⟩ => ⟨S64x64, .f32⟩
  | .local _ .vmem, ⟨7, _⟩ => ⟨S64x1, .f32⟩
  | .local _ .vmem, ⟨8, _⟩ => ⟨S192x64, .f32⟩
  | .local _ .vmem, ⟨9, _⟩ => ⟨S192x64, .f32⟩
  | .local _ .vmem, ⟨10, _⟩ => ⟨S192x1, .f32⟩
  | .local _ .vmem, ⟨11, _⟩ => ⟨S192x1, .f32⟩
  | .local _ .vmem, ⟨12, _⟩ => ⟨S1x64x2048, .f32⟩
  | .local _ .vmem, ⟨13, _⟩ => ⟨S1x64x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S64_S64x1 : S64.ShapeCasts S64x1
  shapeCasts_S192_S192x1 : S192.ShapeCasts S192x1
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  inb_S64x64_S64x64_0_0 : ∀ a, (![0, 0] : Fin 2 → Nat) a + S64x64.size a ≤ S64x64.size a
  h_S64x64 : 0 < S64x64.numel
  inb_S192x64_S192x64_0_0 : ∀ a, (![0, 0] : Fin 2 → Nat) a + S192x64.size a ≤ S192x64.size a
  h_S192x64 : 0 < S192x64.numel
  inb_S192x1_S192x1_0_0 : ∀ a, (![0, 0] : Fin 2 → Nat) a + S192x1.size a ≤ S192x1.size a
  h_S192x1 : 0 < S192x1.numel
  shapeCasts_S192x1_S192x1 : S192x1.ShapeCasts S192x1
  broadcasts_S192x1_S192x2048 : S192x1.Broadcasts S192x2048
  slices_S192x2048_o0_0_S64x2048 : S192x2048.Slices ![0, 0] S64x2048
  slices_S192x2048_o64_0_S64x2048 : S192x2048.Slices ![64, 0] S64x2048
  slices_S192x2048_o128_0_S64x2048 : S192x2048.Slices ![128, 0] S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  transposes_S4x64x2048_S4x2048x64_0_2_1 : S4x64x2048.Transposes [0, 2, 1] S4x2048x64
  shapeCasts_S4x2048x64_S8192x64 : S4x2048x64.ShapeCasts S8192x64
  dot_S64x128_S2048x128_S64x2048_1_1_0_0_n_n_wf : DotDims.WF S64x128 S2048x128 S64x2048 [1] [1] [0] [0] [] []
  dot_S64x2048_S2048x2048_S64x2048_1_0_0_1_n_n_wf : DotDims.WF S64x2048 S2048x2048 S64x2048 [1] [0] [0] [1] [] []
  dot_S64x64_S64x2048_S64x2048_1_0_0_1_n_n_wf : DotDims.WF S64x64 S64x2048 S64x2048 [1] [0] [0] [1] [] []
  dot_S192x64_S64x2048_S192x2048_1_0_0_1_n_n_wf : DotDims.WF S192x64 S64x2048 S192x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S4x2048x2048.size a
  hwx0_0 : ∀ i : grid0.Coords, EltTy.bits .f32 = 32 ∨ (Rect.block (s := S4x2048x2048) S1x2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S4x2048x128.size a
  hwx0_1 : ∀ i : grid0.Coords, EltTy.bits .f32 = 32 ∨ (Rect.block (s := S4x2048x128) S1x2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192x64.size a ≤ S192x64.size a
  hwx0_6 : ∀ i : grid0.Coords, EltTy.bits .f32 = 32 ∨ (Rect.block (s := S192x64) S192x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x64.size a ≤ S192x64.size a
  hwx0_7 : ∀ i : grid0.Coords, EltTy.bits .f32 = 32 ∨ (Rect.block (s := S192x64) S192x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S192x1.size a ≤ S192x1.size a
  hwx0_8 : ∀ i : grid0.Coords, EltTy.bits .f32 = 32 ∨ (Rect.block (s := S192x1) S192x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S192x1.size a ≤ S192x1.size a
  hwx0_9 : ∀ i : grid0.Coords, EltTy.bits .f32 = 32 ∨ (Rect.block (s := S192x1) S192x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x2048.size a ≤ S4x64x2048.size a
  hwx0_10 : ∀ i : grid0.Coords, EltTy.bits .f32 = 32 ∨ (Rect.block (s := S4x64x2048) S1x64x2048.size (cc0_transform_10 i) (hinb0_10 i)).WholeWords (EltTy.packing .f32)

variable [Facts₀]

def dot_S64x128_S2048x128_S64x2048_1_1_0_0_n_n : DotDims S64x128 S2048x128 S64x2048 where
  lhsContracting := [1]
  rhsContracting := [1]
  lhsNonContracting := [0]
  rhsNonContracting := [0]
  lhsBatch := []
  rhsBatch := []
  wf := dot_S64x128_S2048x128_S64x2048_1_1_0_0_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S64x64_S64x2048_S64x2048_1_0_0_1_n_n : DotDims S64x64 S64x2048 S64x2048 where
  lhsContracting := [1]
  rhsContracting := [0]
  lhsNonContracting := [0]
  rhsNonContracting := [1]
  lhsBatch := []
  rhsBatch := []
  wf := dot_S64x64_S64x2048_S64x2048_1_0_0_1_n_n_wf
def dot_S192x64_S64x2048_S192x2048_1_0_0_1_n_n : DotDims S192x64 S64x2048 S192x2048 where
  lhsContracting := [1]
  rhsContracting := [0]
  lhsNonContracting := [0]
  rhsNonContracting := [1]
  lhsBatch := []
  rhsBatch := []
  wf := dot_S192x64_S64x2048_S192x2048_1_0_0_1_n_n_wf

abbrev win0_0 : Pipeline.Window sig grid0 :=
  Pipeline.Window.ofSpec (Memref.whole main_arg0) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S192x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S192x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S192x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S192x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x64x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S4x2048x128 : Shape := ⟨3, ![4, 2048, 128]⟩
abbrev S64x128 : Shape := ⟨2, ![64, 128]⟩
abbrev S64 : Shape := ⟨1, ![64]⟩
abbrev S64x64 : Shape := ⟨2, ![64, 64]⟩
abbrev S192x64 : Shape := ⟨2, ![192, 64]⟩
abbrev S192 : Shape := ⟨1, ![192]⟩
abbrev S8192x128 : Shape := ⟨2, ![8192, 128]⟩
abbrev S128x64 : Shape := ⟨2, ![128, 64]⟩
abbrev S8192x64 : Shape := ⟨2, ![8192, 64]⟩
abbrev S1x64 : Shape := ⟨2, ![1, 64]⟩
abbrev S_ : Shape := ⟨0, ![]⟩
abbrev S4x2048x64 : Shape := ⟨3, ![4, 2048, 64]⟩
abbrev S64x192 : Shape := ⟨2, ![64, 192]⟩
abbrev S8192x192 : Shape := ⟨2, ![8192, 192]⟩
abbrev S1x192 : Shape := ⟨2, ![1, 192]⟩

abbrev nBuf : Space → Nat
  | .hbm => 129
  | .vmem => 0
  | .smem => 0
  | _ => 0

abbrev hbmTy0_0 (i : Nat) : BufTy := match i % 128 with
  | 0 => ⟨S4x2048x2048, .f32⟩
  | 1 => ⟨S4x2048x128, .f32⟩
  | 2 => ⟨S64x128, .f32⟩
  | 3 => ⟨S64, .f32⟩
  | 4 => ⟨S64x64, .f32⟩
  | 5 => ⟨S64, .f32⟩
  | 6 => ⟨S192x64, .f32⟩
  | 7 => ⟨S192x64, .f32⟩
  | 8 => ⟨S192, .f32⟩
  | 9 => ⟨S192, .f32⟩
  | 10 => ⟨S8192x128, .f32⟩
  | 11 => ⟨S128x64, .f32⟩
  | 12 => ⟨S8192x64, .f32⟩
  | 13 => ⟨S1x64, .f32⟩
  | 14 => ⟨S8192x64, .f32⟩
  | 15 => ⟨S8192x64, .f32⟩
  | 16 => ⟨S_, .f32⟩
  | 17 => ⟨S8192x64, .f32⟩
  | 18 => ⟨S8192x64, .f32⟩
  | 19 => ⟨S4x2048x64, .f32⟩
  | 20 => ⟨S4x2048x64, .f32⟩
  | 21 => ⟨S8192x64, .f32⟩
  | 22 => ⟨S8192x64, .f32⟩
  | 23 => ⟨S64x64, .f32⟩
  | 24 => ⟨S8192x64, .f32⟩
  | 25 => ⟨S1x64, .f32⟩
  | 26 => ⟨S8192x64, .f32⟩
  | 27 => ⟨S8192x64, .f32⟩
  | 28 => ⟨S_, .f32⟩
  | 29 => ⟨S8192x64, .f32⟩
  | 30 => ⟨S8192x64, .f32⟩
  | 31 => ⟨S64x192, .f32⟩
  | 32 => ⟨S8192x192, .f32⟩
  | 33 => ⟨S1x192, .f32⟩
  | 34 => ⟨S8192x192, .f32⟩
  | 35 => ⟨S8192x192, .f32⟩
  | 36 => ⟨S64x192, .f32⟩
  | 37 => ⟨S8192x192, .f32⟩
  | 38 => ⟨S1x192, .f32⟩
  | 39 => ⟨S8192x192, .f32⟩
  | 40 => ⟨S8192x192, .f32⟩
  | 41 => ⟨S8192x64, .f32⟩
  | 42 => ⟨S8192x64, .f32⟩
  | 43 => ⟨S8192x64, .f32⟩
  | 44 => ⟨S8192x64, .f32⟩
  | 45 => ⟨S8192x64, .f32⟩
  | 46 => ⟨S8192x64, .f32⟩
  | 47 => ⟨S8192x64, .f32⟩
  | 48 => ⟨S8192x64, .f32⟩
  | 49 => ⟨S8192x64, .f32⟩
  | 50 => ⟨S_, .f32⟩
  | 51 => ⟨S8192x64, .f32⟩
  | 52 => ⟨S8192x64, .f32⟩
  | 53 => ⟨S_, .f32⟩
  | 54 => ⟨S8192x64, .f32⟩
  | 55 => ⟨S8192x64, .f32⟩
  | 56 => ⟨S8192x64, .f32⟩
  | 57 => ⟨S8192x64, .f32⟩
  | 58 => ⟨S8192x64, .f32⟩
  | 59 => ⟨S_, .f32⟩
  | 60 => ⟨S8192x64, .f32⟩
  | 61 => ⟨S8192x64, .f32⟩
  | 62 => ⟨S_, .f32⟩
  | 63 => ⟨S8192x64, .f32⟩
  | 64 => ⟨S8192x64, .f32⟩
  | 65 => ⟨S8192x64, .f32⟩
  | 66 => ⟨S8192x64, .f32⟩
  | 67 => ⟨S8192x64, .f32⟩
  | 68 => ⟨S_, .f32⟩
  | 69 => ⟨S8192x64, .f32⟩
  | 70 => ⟨S8192x64, .f32⟩
  | 71 => ⟨S8192x64, .f32⟩
  | 72 => ⟨S8192x64, .f32⟩
  | 73 => ⟨S8192x64, .f32⟩
  | 74 => ⟨S4x2048x64, .f32⟩
  | 75 => ⟨S4x2048x64, .f32⟩
  | 76 => ⟨S8192x64, .f32⟩
  | 77 => ⟨S8192x64, .f32⟩
  | 78 => ⟨S64x64, .f32⟩
  | 79 => ⟨S8192x64, .f32⟩
  | 80 => ⟨S1x64, .f32⟩
  | 81 => ⟨S8192x64, .f32⟩
  | 82 => ⟨S8192x64, .f32⟩
  | 83 => ⟨S_, .f32⟩
  | 84 => ⟨S8192x64, .f32⟩
  | 85 => ⟨S8192x64, .f32⟩
  | 86 => ⟨S64x192, .f32⟩
  | 87 => ⟨S8192x192, .f32⟩
  | 88 => ⟨S1x192, .f32⟩
  | 89 => ⟨S8192x192, .f32⟩
  | 90 => ⟨S8192x192, .f32⟩
  | 91 => ⟨S64x192, .f32⟩
  | 92 => ⟨S8192x192, .f32⟩
  | 93 => ⟨S1x192, .f32⟩
  | 94 => ⟨S8192x192, .f32⟩
  | 95 => ⟨S8192x192, .f32⟩
  | 96 => ⟨S8192x64, .f32⟩
  | 97 => ⟨S8192x64, .f32⟩
  | 98 => ⟨S8192x64, .f32⟩
  | 99 => ⟨S8192x64, .f32⟩
  | 100 => ⟨S8192x64, .f32⟩
  | 101 => ⟨S8192x64, .f32⟩
  | 102 => ⟨S8192x64, .f32⟩
  | 103 => ⟨S8192x64, .f32⟩
  | 104 => ⟨S8192x64, .f32⟩
  | 105 => ⟨S_, .f32⟩
  | 106 => ⟨S8192x64, .f32⟩
  | 107 => ⟨S8192x64, .f32⟩
  | 108 => ⟨S_, .f32⟩
  | 109 => ⟨S8192x64, .f32⟩
  | 110 => ⟨S8192x64, .f32⟩
  | 111 => ⟨S8192x64, .f32⟩
  | 112 => ⟨S8192x64, .f32⟩
  | 113 => ⟨S8192x64, .f32⟩
  | 114 => ⟨S_, .f32⟩
  | 115 => ⟨S8192x64, .f32⟩
  | 116 => ⟨S8192x64, .f32⟩
  | 117 => ⟨S_, .f32⟩
  | 118 => ⟨S8192x64, .f32⟩
  | 119 => ⟨S8192x64, .f32⟩
  | 120 => ⟨S8192x64, .f32⟩
  | 121 => ⟨S8192x64, .f32⟩
  | 122 => ⟨S8192x64, .f32⟩
  | 123 => ⟨S_, .f32⟩
  | 124 => ⟨S8192x64, .f32⟩
  | 125 => ⟨S8192x64, .f32⟩
  | 126 => ⟨S8192x64, .f32⟩
  | 127 => ⟨S8192x64, .f32⟩
  | _ => ⟨S4x2048x2048, .f32⟩

abbrev hbmTy0_1 (i : Nat) : BufTy := match i % 128 with
  | 0 => ⟨S8192x64, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst : Ref sig .tc := ⟨.hbm, 50, rfl⟩
abbrev main_v36 : Ref sig .tc := ⟨.hbm, 51, rfl⟩
abbrev main_v37 : Ref sig .tc := ⟨.hbm, 52, rfl⟩
abbrev main_cst_0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_1 : Ref sig .tc := ⟨.hbm, 59, rfl⟩
abbrev main_v43 : Ref sig .tc := ⟨.hbm, 60, rfl⟩
abbrev main_v44 : Ref sig .tc := ⟨.hbm, 61, rfl⟩
abbrev main_cst_2 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_3 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call2_cst : Ref sig .tc := ⟨.hbm, 83, rfl⟩
abbrev main_call2_v0 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_4 : Ref sig .tc := ⟨.hbm, 105, rfl⟩
abbrev main_v84 : Ref sig .tc := ⟨.hbm, 106, rfl⟩
abbrev main_v85 : Ref sig .tc := ⟨.hbm, 107, rfl⟩
abbrev main_cst_5 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_6 : Ref sig .tc := ⟨.hbm, 114, rfl⟩
abbrev main_v91 : Ref sig .tc := ⟨.hbm, 115, rfl⟩
abbrev main_v92 : Ref sig .tc := ⟨.hbm, 116, rfl⟩
abbrev main_cst_7 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_8 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩

abbrev nD : Nat := 1
abbrev τ : Topo := Topo.v7x

variable {F : FTy → Type} [FloatOps F]

class Facts₀ : Prop where
  shapeCasts_S4x2048x128_S8192x128 : S4x2048x128.ShapeCasts S8192x128
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  shapeCasts_S8192x64_S4x2048x64 : S8192x64.ShapeCasts S4x2048x64
  shapeCasts_S4x2048x64_S8192x64 : S4x2048x64.ShapeCasts S8192x64
  transposes_S64x64_S64x64_1_0 : S64x64.Transposes [1, 0] S64x64
  transposes_S192x64_S64x192_1_0 : S192x64.Transposes [1, 0] S64x192
  bcast_S192_S1x192_1 : S192.BroadcastsInDim S1x192 (![1] : Fin 1 → Fin S1x192.rank)
  bcast_S1x192_S8192x192_0_1 : S1x192.BroadcastsInDim S8192x192 (![0, 1] : Fin 2 → Fin S8192x192.rank)
  slices_S8192x192_S8192x64_0_0 : S8192x192.Slices ![0, 0] S8192x64
  slices_S8192x192_S8192x64_0_64 : S8192x192.Slices ![0, 64] S8192x64
  slices_S8192x192_S8192x64_0_128 : S8192x192.Slices ![0, 128] S8192x64
  dot_S8192x128_S128x64_S8192x64_1_0_0_1_n_n_wf : DotDims.WF S8192x128 S128x64 S8192x64 [1] [0] [0] [1] [] []
  dot_S4x2048x2048_S4x2048x64_S4x2048x64_1_1_2_2_0_0_wf : DotDims.WF S4x2048x2048 S4x2048x64 S4x2048x64 [1] [1] [2] [2] [0] [0]
  dot_S8192x64_S64x64_S8192x64_1_0_0_1_n_n_wf : DotDims.WF S8192x64 S64x64 S8192x64 [1] [0] [0] [1] [] []
  dot_S8192x64_S64x192_S8192x192_1_0_0_1_n_n_wf : DotDims.WF S8192x64 S64x192 S8192x192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S4x2048x2048_S4x2048x64_S4x2048x64_1_1_2_2_0_0 : DotDims S4x2048x2048 S4x2048x64 S4x2048x64 where
  lhsContracting := [1]
  rhsContracting := [1]
  lhsNonContracting := [2]
  rhsNonContracting := [2]
  lhsBatch := [0]
  rhsBatch := [0]
  wf := dot_S4x2048x2048_S4x2048x64_S4x2048x64_1_1_2_2_0_0_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x192_S8192x192_1_0_0_1_n_n : DotDims S8192x64 S64x192 S8192x192 where
  lhsContracting := [1]
  rhsContracting := [0]
  lhsNonContracting := [0]
  rhsNonContracting := [1]
  lhsBatch := []
  rhsBatch := []
  wf := dot_S8192x64_S64x192_S8192x192_1_0_0_1_n_n_wf

class Facts : Prop extends Facts₀ where

variable [Facts]
-- ==== Proof.Spec.lean ====
/-
  The graph encoder as ONE function of the argument arrays, on the extended reals.

  A batch holds four independent graphs on 2048 nodes.  For one graph, with adjacency `A u v`,
  node features `X n k` and the layer parameters, the encoder keeps a hidden state `h d n`
  (feature `d` of node `n`; the layout is features × nodes):

    embed      h₀ d n = relu (∑ k, W₀ d k · X n k + b₀ d)
    one round  s d v  = h d v + ∑ u, h d u · A u v                 (sum over in-neighbours)
               m e n  = relu (∑ d, Wg e d · s d n + bg e)
               gi j n = ∑ e, Wih j e · m e n + bih j                (192 = 3 · 64 gate rows)
               gh j n = ∑ e, Whh j e · h e n + bhh j
               r = σ (gi d + gh d),  z = σ (gi (64+d) + gh (64+d)),
               c = tanh (gi (128+d) + r · gh (128+d)),
               h' d n = (1 − z) · c + z · h d n

  and the result is two rounds after the embedding, written out row-major as
  [graph · 2048 + node, feature].  No law beyond reading an index is used here; the two
  programs differ from this text only in the order of factors inside the sums.
-/
import Idealize.ShloMosaic.PureOps.Ideal
import Idealize.ShloMosaic.Lib.ValueIdx

noncomputable section

namespace Cert.GraphEnc

open Idealize.ShloMosaic Idealize.ShloMosaic.ValueIdx

/-- The word of `+0.0` and of `1.0`, as the extended reals they denote (never evaluated: both
    programs spell the same words). -/
abbrev zeroW : EReal := Ideal.ofBits .f32 0x00000000#32
abbrev oneW : EReal := Ideal.ofBits .f32 0x3F800000#32

/-- Hidden state of one graph: feature × node. -/
abbrev Hid := Fin 64 → Fin 2048 → EReal
/-- The three stacked gate pre-activations of one graph: gate row × node. -/
abbrev Gates := Fin 192 → Fin 2048 → EReal

/-- Gate row `d`, `64 + d`, `128 + d` of the stacked 192 rows. -/
abbrev gLo (d : Fin 64) : Fin 192 := ⟨d.val, by omega⟩
abbrev gMid (d : Fin 64) : Fin 192 := ⟨64 + d.val, by omega⟩
abbrev gHi (d : Fin 64) : Fin 192 := ⟨128 + d.val, by omega⟩

def relu (x : EReal) : EReal := max x zeroW

/-- The input layer: `relu (W₀ · xₙ + b₀)`. -/
def embed (W0 : Fin 64 → Fin 128 → EReal) (b0 : Fin 64 → EReal) (X : Fin 2048 → Fin 128 → EReal) : Hid :=
  fun d n => relu (∑ k : Fin 128, W0 d k * X n k + b0 d)

/-- Sum of the hidden state over in-neighbours. -/
def agg (A : Fin 2048 → Fin 2048 → EReal) (h : Hid) : Hid :=
  fun d v => ∑ u : Fin 2048, h d u * A u v

/-- The message layer on a summed state. -/
def msg (Wg : Fin 64 → Fin 64 → EReal) (bg : Fin 64 → EReal) (s : Hid) : Hid :=
  fun e n => relu (∑ d : Fin 64, Wg e d * s d n + bg e)

/-- The three gates' linear part, without bias. -/
def lin3 (W : Fin 192 → Fin 64 → EReal) (x : Hid) : Gates :=
  fun j n => ∑ e : Fin 64, W j e * x e n

/-- The gated update from the two stacked pre-activations and the old state. -/
def gru (gi gh : Gates) (h : Hid) : Hid := fun d n =>
  (oneW - Ideal.logistic (gi (gMid d) n + gh (gMid d) n))
      * Ideal.tanh (gi (gHi d) n + Ideal.logistic (gi (gLo d) n + gh (gLo d) n) * gh (gHi d) n)
    + Ideal.logistic (gi (gMid d) n + gh (gMid d) n) * h d n

/-- The input-side pre-activations of a round. -/
def gateI (A : Fin 2048 → Fin 2048 → EReal) (Wg : Fin 64 → Fin 64 → EReal) (bg : Fin 64 → EReal)
    (Wih : Fin 192 → Fin 64 → EReal) (bih : Fin 192 → EReal) (h : Hid) : Gates :=
  fun j n => lin3 Wih (msg Wg bg (fun d v => h d v + agg A h d v)) j n + bih j

/-- The state-side pre-activations of a round. -/
def gateH (Whh : Fin 192 → Fin 64 → EReal) (bhh : Fin 192 → EReal) (h : Hid) : Gates :=
  fun j n => lin3 Whh h j n + bhh j

/-- One round of message passing and gated update. -/
def step (A : Fin 2048 → Fin 2048 → EReal) (Wg : Fin 64 → Fin 64 → EReal) (bg : Fin 64 → EReal)
    (Wih Whh : Fin 192 → Fin 64 → EReal) (bih bhh : Fin 192 → EReal) (h : Hid) : Hid :=
  gru (gateI A Wg bg Wih bih h) (gateH Whh bhh h) h

/-- The encoder of one graph: embedding, then two rounds. -/
def enc (A : Fin 2048 → Fin 2048 → EReal) (X : Fin 2048 → Fin 128 → EReal)
    (W0 : Fin 64 → Fin 128 → EReal) (b0 : Fin 64 → EReal) (Wg : Fin 64 → Fin 64 → EReal) (bg : Fin 64 → EReal)
    (Wih Whh : Fin 192 → Fin 64 → EReal) (bih bhh : Fin 192 → EReal) : Hid :=
  step A Wg bg Wih Whh bih bhh (step A Wg bg Wih Whh bih bhh (embed W0 b0 X))

/-! ## The whole result array -/

/-- Graph and node of row `r` of the stacked [4 · 2048, 64] result. -/
abbrev gOf (r : Fin 8192) : Fin 4 := ⟨r.val / 2048, by omega⟩
abbrev nOf (r : Fin 8192) : Fin 2048 := ⟨r.val % 2048, Nat.mod_lt _ (by decide)⟩
/-- Row of node `n` of graph `g`. -/
abbrev rowOf (g : Fin 4) (n : Fin 2048) : Fin 8192 := ⟨g.val * 2048 + n.val, by omega⟩

theorem gOf_rowOf (g : Fin 4) (n : Fin 2048) : gOf (rowOf g n) = g := Fin.ext (by show (g.val * 2048 + n.val) / 2048 = g.val; omega)
theorem nOf_rowOf (g : Fin 4) (n : Fin 2048) : nOf (rowOf g n) = n := Fin.ext (by show (g.val * 2048 + n.val) % 2048 = n.val; omega)
theorem rowOf_gOf_nOf (r : Fin 8192) : rowOf (gOf r) (nOf r) = r := Fin.ext (by show r.val / 2048 * 2048 + r.val % 2048 = r.val; omega)

/-- The argument arrays read by coordinates, one graph at a time. -/
abbrev adjOf (adj : (⟨3, ![4, 2048, 2048]⟩ : Shape).Idx → EReal) (g : Fin 4) : Fin 2048 → Fin 2048 → EReal := fun u v => adj (ix3 g u v)
abbrev featOf (x : (⟨3, ![4, 2048, 128]⟩ : Shape).Idx → EReal) (g : Fin 4) : Fin 2048 → Fin 128 → EReal := fun n k => x (ix3 g n k)
abbrev mat {a b : Nat} (w : (⟨2, ![a, b]⟩ : Shape).Idx → EReal) : Fin a → Fin b → EReal := fun i j => w (ix2 i j)
abbrev vec {a : Nat} (w : (⟨1, ![a]⟩ : Shape).Idx → EReal) : Fin a → EReal := fun i => w (ix1 i)

/-- The encoder's result for graph `g` from the whole argument arrays. -/
def encOf (adj : (⟨3, ![4, 2048, 2048]⟩ : Shape).Idx → EReal) (x : (⟨3, ![4, 2048, 128]⟩ : Shape).Idx → EReal)
    (w0 : (⟨2, ![64, 128]⟩ : Shape).Idx → EReal) (b0 : (⟨1, ![64]⟩ : Shape).Idx → EReal)
    (wg : (⟨2, ![64, 64]⟩ : Shape).Idx → EReal) (bg : (⟨1, ![64]⟩ : Shape).Idx → EReal)
    (wih whh : (⟨2, ![192, 64]⟩ : Shape).Idx → EReal) (bih bhh : (⟨1, ![192]⟩ : Shape).Idx → EReal) (g : Fin 4) : Hid :=
  enc (adjOf adj g) (featOf x g) (mat w0) (vec b0) (mat wg) (vec bg) (mat wih) (mat whh) (vec bih) (vec bhh)

/-- The result array: entry `[g · 2048 + n, d]` is feature `d` of node `n` of graph `g`. -/
def result (adj : (⟨3, ![4, 2048, 2048]⟩ : Shape).Idx → EReal) (x : (⟨3, ![4, 2048, 128]⟩ : Shape).Idx → EReal)
    (w0 : (⟨2, ![64, 128]⟩ : Shape).Idx → EReal) (b0 : (⟨1, ![64]⟩ : Shape).Idx → EReal)
    (wg : (⟨2, ![64, 64]⟩ : Shape).Idx → EReal) (bg : (⟨1, ![64]⟩ : Shape).Idx → EReal)
    (wih whh : (⟨2, ![192, 64]⟩ : Shape).Idx → EReal) (bih bhh : (⟨1, ![192]⟩ : Shape).Idx → EReal) :
    (⟨2, ![8192, 64]⟩ : Shape).Idx → EReal :=
  fun i => encOf adj x w0 b0 wg bg wih whh bih bhh (gOf (i 0)) (i 1) (nOf (i 0))

end Cert.GraphEnc

end
-- ==== Proof.KernelArrayA.lean ====
/-
  The blocks the kernel region sees at grid point `t`, read back as the argument arrays.

  The grid has one point per graph.  At point `t` the adjacency and feature windows hold
  slab `t` of their arrays; the eight parameter windows hold their whole arrays at every
  point; the four bias columns are the bias vectors re-shaped [a] → [a, 1] by the host
  before the region.
-/
import proofs.«129612_g77850577207767_cont_9to1c4b_578_26_alg».proof.Proof.Gen.KernelIdeal.Frame
import proofs.«129612_g77850577207767_cont_9to1c4b_578_26_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.GraphEnc.KernelArray

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.GraphEnc

variable (m : (ℓ : Loc nD τ sig) → Buf (Elt Ideal) ℓ)

/-- The graph a grid point works on. -/
abbrev gpt (t : Fin cfg0.N) : Fin 4 := ⟨t.val, lt_of_lt_of_eq t.isLt (show cfg0.N = 4 from N_0)⟩

/-- The ten argument arrays on core `c`, at their literal types. -/
abbrev aAdj (c : Dev nD) : S4x2048x2048.Idx → EReal := m ((c : Thread nD τ).loc main_arg0)
abbrev aX (c : Dev nD) : S4x2048x128.Idx → EReal := m ((c : Thread nD τ).loc main_arg1)
abbrev aW0 (c : Dev nD) : S64x128.Idx → EReal := m ((c : Thread nD τ).loc main_arg2)
abbrev aB0 (c : Dev nD) : S64.Idx → EReal := m ((c : Thread nD τ).loc main_arg3)
abbrev aWg (c : Dev nD) : S64x64.Idx → EReal := m ((c : Thread nD τ).loc main_arg4)
abbrev aBg (c : Dev nD) : S64.Idx → EReal := m ((c : Thread nD τ).loc main_arg5)
abbrev aWih (c : Dev nD) : S192x64.Idx → EReal := m ((c : Thread nD τ).loc main_arg6)
abbrev aWhh (c : Dev nD) : S192x64.Idx → EReal := m ((c : Thread nD τ).loc main_arg7)
abbrev aBih (c : Dev nD) : S192.Idx → EReal := m ((c : Thread nD τ).loc main_arg8)
abbrev aBhh (c : Dev nD) : S192.Idx → EReal := m ((c : Thread nD τ).loc main_arg9)

/-- The windows' block indices over the grid: the two per-graph inputs and the output move with the
    point on their leading axis; every other coordinate of every window stays at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 3) = t.val ∧ win0_10.index t (1 : Fin 3) = 0 ∧ win0_10.index t (2 : Fin 3) = 0) :=
  (by decide +kernel : ∀ t : Fin grid0.N, _)

/-! ## The bias columns the host wrote before the region -/

theorem V_b0 (c : Dev nD) : (V m c main_v0 : S64x1.Idx → EReal) = shapeCast _ (aB0 m c) shapeCasts_S64_S64x1 := by
  show StableHlo.after hostOps0 (fun b => m (c, b)) (Proc.devRef .tc main_v0) = _
  after_results; rfl
theorem V_bg (c : Dev nD) : (V m c main_v1 : S64x1.Idx → EReal) = shapeCast _ (aBg m c) shapeCasts_S64_S64x1 := by
  show StableHlo.after hostOps0 (fun b => m (c, b)) (Proc.devRef .tc main_v1) = _
  after_results; rfl
theorem V_bih (c : Dev nD) : (V m c main_v2 : S192x1.Idx → EReal) = shapeCast _ (aBih m c) shapeCasts_S192_S192x1 := by
  show StableHlo.after hostOps0 (fun b => m (c, b)) (Proc.devRef .tc main_v2) = _
  after_results; rfl
theorem V_bhh (c : Dev nD) : (V m c main_v3 : S192x1.Idx → EReal) = shapeCast _ (aBhh m c) shapeCasts_S192_S192x1 := by
  show StableHlo.after hostOps0 (fun b => m (c, b)) (Proc.devRef .tc main_v3) = _
  after_results; rfl

/-- A vector re-shaped to a column reads, at row `i`, the vector's entry `i`. -/
theorem col_apply {a : Nat} (x : (⟨1, ![a]⟩ : Shape).Idx → EReal) (h : (⟨1, ![a]⟩ : Shape).ShapeCasts ⟨2, ![a, 1]⟩) (i : Fin a) :
    shapeCast ⟨2, ![a, 1]⟩ x h (ix2 i (0 : Fin 1)) = x (ix1 i) :=
  shapeCast_apply x h _ _ (by
    rw [Shape.rowMajor_val_one, Shape.rowMajor_val_two]
    show i.val = i.val * 1 + 0
    omega)

/-! ## The input blocks at a point -/

/-- The adjacency block at point `t` is slab `t` of the adjacency array. -/
theorem blk_adj (c : Dev nD) (t : Fin cfg0.N) (u v : Fin 2048) :
    iblk m c 0 t (ix3 (0 : Fin 1) u v) = aAdj m c (ix3 (gpt t) u v) := by
  unfold iblk
  show V m c main_arg0 (((cfg0.win 0).blk t).view.emb (ix3 (0 : Fin 1) u v)) = _
  rw [V_main_arg0]
  obtain ⟨⟨e0, e1, e2⟩, -⟩ := idx_facts t
  refine congrArg (aAdj m c) (funext fun a => Fin.ext ?_)
  match a with
  | ⟨0, _⟩ => show win0_0.index t (0 : Fin 3) * 1 + 1 * 0 = t.val; omega
  | ⟨1, _⟩ => show win0_0.index t (1 : Fin 3) * 2048 + 1 * u.val = u.val; omega
  | ⟨2, _⟩ => show win0_0.index t (2 : Fin 3) * 2048 + 1 * v.val = v.val; omega

/-- The feature block at point `t` is slab `t` of the feature array. -/
theorem blk_x (c : Dev nD) (t : Fin cfg0.N) (n : Fin 2048) (k : Fin 128) :
    iblk m c 1 t (ix3 (0 : Fin 1) n k) = aX m c (ix3 (gpt t) n k) := by
  unfold iblk
  show V m c main_arg1 (((cfg0.win 1).blk t).view.emb (ix3 (0 : Fin 1) n k)) = _
  rw [V_main_arg1]
  obtain ⟨-, ⟨e0, e1, e2⟩, -⟩ := idx_facts t
  refine congrArg (aX m c) (funext fun a => Fin.ext ?_)
  match a with
  | ⟨0, _⟩ => show win0_1.index t (0 : Fin 3) * 1 + 1 * 0 = t.val; omega
  | ⟨1, _⟩ => show win0_1.index t (1 : Fin 3) * 2048 + 1 * n.val = n.val; omega
  | ⟨2, _⟩ => show win0_1.index t (2 : Fin 3) * 128 + 1 * k.val = k.val; omega

/-- The parameter windows hold their whole arrays at every point. -/
theorem blk_w0 (c : Dev nD) (t : Fin cfg0.N) (e : Fin 64) (k : Fin 128) :
    iblk m c 2 t (ix2 e k) = aW0 m c (ix2 e k) := by
  unfold iblk
  show V m c main_arg2 (((cfg0.win 2).blk t).view.emb (ix2 e k)) = _
  rw [V_main_arg2]
  obtain ⟨-, -, ⟨e0, e1⟩, -⟩ := idx_facts t
  refine congrArg (aW0 m c) (funext fun a => Fin.ext ?_)
  match a with
  | ⟨0, _⟩ => show win0_2.index t (0 : Fin 2) * 64 + 1 * e.val = e.val; omega
  | ⟨1, _⟩ => show win0_2.index t (1 : Fin 2) * 128 + 1 * k.val = k.val; omega

theorem blk_b0 (c : Dev nD) (t : Fin cfg0.N) (e : Fin 64) :
    iblk m c 3 t (ix2 e (0 : Fin 1)) = aB0 m c (ix1 e) := by
  unfold iblk
  show V m c main_v0 (((cfg0.win 3).blk t).view.emb (ix2 e (0 : Fin 1))) = _
  rw [V_b0, ← col_apply (aB0 m c) shapeCasts_S64_S64x1 e]
  obtain ⟨-, -, -, ⟨e0, e1⟩, -⟩ := idx_facts t
  refine congrArg (shapeCast _ (aB0 m c) shapeCasts_S64_S64x1) (funext fun a => Fin.ext ?_)
  match a with
  | ⟨0, _⟩ => show win0_3.index t (0 : Fin 2) * 64 + 1 * e.val = e.val; omega
  | ⟨1, _⟩ => show win0_3.index t (1 : Fin 2) * 1 + 1 * 0 = 0; omega

theorem blk_wg (c : Dev nD) (t : Fin cfg0.N) (e k : Fin 64) :
    iblk m c 4 t (ix2 e k) = aWg m c (ix2 e k) := by
  unfold iblk
  show V m c main_arg4 (((cfg0.win 4).blk t).view.emb (ix2 e k)) = _
  rw [V_main_arg4]
  obtain ⟨-, -, -, -, ⟨e0, e1⟩, -⟩ := idx_facts t
  refine congrArg (aWg m c) (funext fun a => Fin.ext ?_)
  match a with
  | ⟨0, _⟩ => show win0_4.index t (0 : Fin 2) * 64 + 1 * e.val = e.val; omega
  | ⟨1, _⟩ => show win0_4.index t (1 : Fin 2) * 64 + 1 * k.val = k.val; omega

theorem blk_bg (c : Dev nD) (t : Fin cfg0.N) (e : Fin 64) :
    iblk m c 5 t (ix2 e (0 : Fin 1)) = aBg m c (ix1 e) := by
  unfold iblk
  show V m c main_v1 (((cfg0.win 5).blk t).view.emb (ix2 e (0 : Fin 1))) = _
  rw [V_bg, ← col_apply (aBg m c) shapeCasts_S64_S64x1 e]
  obtain ⟨-, -, -, -, -, ⟨e0, e1⟩, -⟩ := idx_facts t
  refine congrArg (shapeCast _ (aBg m c) shapeCasts_S64_S64x1) (funext fun a => Fin.ext ?_)
  match a with
  | ⟨0, _⟩ => show win0_5.index t (0 : Fin 2) * 64 + 1 * e.val = e.val; omega
  | ⟨1, _⟩ => show win0_5.index t (1 : Fin 2) * 1 + 1 * 0 = 0; omega

theorem blk_wih (c : Dev nD) (t : Fin cfg0.N) (j : Fin 192) (e : Fin 64) :
    iblk m c 6 t (ix2 j e) = aWih m c (ix2 j e) := by
  unfold iblk
  show V m c main_arg6 (((cfg0.win 6).blk t).view.emb (ix2 j e)) = _
  rw [V_main_arg6]
  obtain ⟨-, -, -, -, -, -, ⟨e0, e1⟩, -⟩ := idx_facts t
  refine congrArg (aWih m c) (funext fun a => Fin.ext ?_)
  match a with
  | ⟨0, _⟩ => show win0_6.index t (0 : Fin 2) * 192 + 1 * j.val = j.val; omega
  | ⟨1, _⟩ => show win0_6.index t (1 : Fin 2) * 64 + 1 * e.val = e.val; omega

theorem blk_whh (c : Dev nD) (t : Fin cfg0.N) (j : Fin 192) (e : Fin 64) :
    iblk m c 7 t (ix2 j e) = aWhh m c (ix2 j e) := by
  unfold iblk
  show V m c main_arg7 (((cfg0.win 7).blk t).view.emb (ix2 j e)) = _
  rw [V_main_arg7]
  obtain ⟨-, -, -, -, -, -, -, ⟨e0, e1⟩, -⟩ := idx_facts t
  refine congrArg (aWhh m c) (funext fun a => Fin.ext ?_)
  match a with
  | ⟨0, _⟩ => show win0_7.index t (0 : Fin 2) * 192 + 1 * j.val = j.val; omega
  | ⟨1, _⟩ => show win0_7.index t (1 : Fin 2) * 64 + 1 * e.val = e.val; omega

theorem blk_bih (c : Dev nD) (t : Fin cfg0.N) (j : Fin 192) :
    iblk m c 8 t (ix2 j (0 : Fin 1)) = aBih m c (ix1 j) := by
  unfold iblk
  show V m c main_v2 (((cfg0.win 8).blk t).view.emb (ix2 j (0 : Fin 1))) = _
  rw [V_bih, ← col_apply (aBih m c) shapeCasts_S192_S192x1 j]
  obtain ⟨-, -, -, -, -, -, -, -, ⟨e0, e1⟩, -⟩ := idx_facts t
  refine congrArg (shapeCast _ (aBih m c) shapeCasts_S192_S192x1) (funext fun a => Fin.ext ?_)
  match a with
  | ⟨0, _⟩ => show win0_8.index t (0 : Fin 2) * 192 + 1 * j.val = j.val; omega
  | ⟨1, _⟩ => show win0_8.index t (1 : Fin 2) * 1 + 1 * 0 = 0; omega

theorem blk_bhh (c : Dev nD) (t : Fin cfg0.N) (j : Fin 192) :
    iblk m c 9 t (ix2 j (0 : Fin 1)) = aBhh m c (ix1 j) := by
  unfold iblk
  show V m c main_v3 (((cfg0.win 9).blk t).view.emb (ix2 j (0 : Fin 1))) = _
  rw [V_bhh, ← col_apply (aBhh m c) shapeCasts_S192_S192x1 j]
  obtain ⟨-, -, -, -, -, -, -, -, -, ⟨e0, e1⟩, -⟩ := idx_facts t
  refine congrArg (shapeCast _ (aBhh m c) shapeCasts_S192_S192x1) (funext fun a => Fin.ext ?_)
  match a with
  | ⟨0, _⟩ => show win0_9.index t (0 : Fin 2) * 192 + 1 * j.val = j.val; omega
  | ⟨1, _⟩ => show win0_9.index t (1 : Fin 2) * 1 + 1 * 0 = 0; omega

end Cert.GraphEnc.KernelArray

end
-- ==== Proof.KernelOps.lean ====
/-
  The kernel's layout and contraction operations read at one entry, at the exact (extended-real)
  values: a matrix product into the zero accumulator is the plain sum of products over the
  contracted coordinate; a column [a,1] broadcast along rows reads its row's entry; a block of rows
  cut out of the 192 stacked rows reads the row shifted by the offset; a unit leading axis
  dropped or added does not move an entry.
-/
import proofs.«129612_g77850577207767_cont_9to1c4b_578_26_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.GraphEnc.KernelOps

open Idealize.ShloMosaic Idealize.ShloMosaic.ValueIdx Cert.KernelIdeal Cert.KernelIdeal.Gen

/-! ## The product [64,128] · [2048,128]ᵀ (both contracted on their second axis) -/

theorem lhs_A_0 (i : S64x2048.Idx) (q : dot_S64x128_S2048x128_S64x2048_1_1_0_0_n_n.contr.Idx) :
    (dot_S64x128_S2048x128_S64x2048_1_1_0_0_n_n.lhsIdx i q 0).val = (i 0).val := by
  unfold DotDims.lhsIdx
  rw [dif_neg (show ¬(0 : Fin S64x128.rank) ∈ dot_S64x128_S2048x128_S64x2048_1_1_0_0_n_n.lhsBatch by decide), dif_pos (show (0 : Fin S64x128.rank) ∈ dot_S64x128_S2048x128_S64x2048_1_1_0_0_n_n.lhsNonContracting by decide)]
  rfl
theorem lhs_A_1 (i : S64x2048.Idx) (q : dot_S64x128_S2048x128_S64x2048_1_1_0_0_n_n.contr.Idx) :
    (dot_S64x128_S2048x128_S64x2048_1_1_0_0_n_n.lhsIdx i q 1).val = (q ⟨0, by decide⟩).val :=
  dot_S64x128_S2048x128_S64x2048_1_1_0_0_n_n.lhsIdx_val_of_single rfl i q
theorem rhs_A_0 (i : S64x2048.Idx) (q : dot_S64x128_S2048x128_S64x2048_1_1_0_0_n_n.contr.Idx) :
    (dot_S64x128_S2048x128_S64x2048_1_1_0_0_n_n.rhsIdx i q 0).val = (i 1).val := by
  unfold DotDims.rhsIdx
  rw [dif_neg (show ¬(0 : Fin S2048x128.rank) ∈ dot_S64x128_S2048x128_S64x2048_1_1_0_0_n_n.rhsBatch by decide), dif_pos (show (0 : Fin S2048x128.rank) ∈ dot_S64x128_S2048x128_S64x2048_1_1_0_0_n_n.rhsNonContracting by decide)]
  rfl
theorem rhs_A_1 (i : S64x2048.Idx) (q : dot_S64x128_S2048x128_S64x2048_1_1_0_0_n_n.contr.Idx) :
    (dot_S64x128_S2048x128_S64x2048_1_1_0_0_n_n.rhsIdx i q 1).val = (q ⟨0, by decide⟩).val :=
  dot_S64x128_S2048x128_S64x2048_1_1_0_0_n_n.rhsIdx_val_of_single rfl i q

/-- Entry (i, j) of W · Xᵀ is ∑ₖ W[i,k] · X[j,k]. -/
theorem matmul_A (l : FVec Ideal S64x128 .f32) (r : FVec Ideal S2048x128 .f32) (i : Fin 64) (j : Fin 2048) :
    matmul dot_S64x128_S2048x128_S64x2048_1_1_0_0_n_n none l r (constant S64x2048 .f32 0x00000000#32) (ix2 i j)
      = ∑ k : Fin 128, l (ix2 i k) * r (ix2 j k) := by
  simp only [matmul]
  rw [Ideal.matmul_constant_zero_apply, ← Equiv.sum_comp (ValueIdx.contrEquiv1 dot_S64x128_S2048x128_S64x2048_1_1_0_0_n_n 128 rfl rfl).symm]
  refine Finset.sum_congr rfl fun k _ => ?_
  have hk := ValueIdx.contrEquiv1_symm_val dot_S64x128_S2048x128_S64x2048_1_1_0_0_n_n 128 rfl rfl k
  have el : dot_S64x128_S2048x128_S64x2048_1_1_0_0_n_n.lhsIdx (ix2 i j) ((ValueIdx.contrEquiv1 dot_S64x128_S2048x128_S64x2048_1_1_0_0_n_n 128 rfl rfl).symm k) = ix2 i k := funext fun a => Fin.ext (by
    match a with
    | ⟨0, _⟩ => exact lhs_A_0 _ _
    | ⟨1, _⟩ => exact (lhs_A_1 _ _).trans hk)
  have er : dot_S64x128_S2048x128_S64x2048_1_1_0_0_n_n.rhsIdx (ix2 i j) ((ValueIdx.contrEquiv1 dot_S64x128_S2048x128_S64x2048_1_1_0_0_n_n 128 rfl rfl).symm k) = ix2 j k := funext fun a => Fin.ext (by
    match a with
    | ⟨0, _⟩ => exact rhs_A_0 _ _
    | ⟨1, _⟩ => exact (rhs_A_1 _ _).trans hk)
  rw [el, er]

/-! ## The product [64,2048] · [2048,2048] (state times adjacency) -/

theorem lhs_B_0 (i : S64x2048.Idx) (q : dot_S64x2048_S2048x2048_S64x2048_1_0_0_1_n_n.contr.Idx) :
    (dot_S64x2048_S2048x2048_S64x2048_1_0_0_1_n_n.lhsIdx i q 0).val = (i 0).val := by
  unfold DotDims.lhsIdx
  rw [dif_neg (show ¬(0 : Fin S64x2048.rank) ∈ dot_S64x2048_S2048x2048_S64x2048_1_0_0_1_n_n.lhsBatch by decide), dif_pos (show (0 : Fin S64x2048.rank) ∈ dot_S64x2048_S2048x2048_S64x2048_1_0_0_1_n_n.lhsNonContracting by decide)]
  rfl
theorem lhs_B_1 (i : S64x2048.Idx) (q : dot_S64x2048_S2048x2048_S64x2048_1_0_0_1_n_n.contr.Idx) :
    (dot_S64x2048_S2048x2048_S64x2048_1_0_0_1_n_n.lhsIdx i q 1).val = (q ⟨0, by decide⟩).val :=
  dot_S64x2048_S2048x2048_S64x2048_1_0_0_1_n_n.lhsIdx_val_of_single rfl i q
theorem rhs_B_0 (i : S64x2048.Idx) (q : dot_S64x2048_S2048x2048_S64x2048_1_0_0_1_n_n.contr.Idx) :
    (dot_S64x2048_S2048x2048_S64x2048_1_0_0_1_n_n.rhsIdx i q 0).val = (q ⟨0, by decide⟩).val :=
  dot_S64x2048_S2048x2048_S64x2048_1_0_0_1_n_n.rhsIdx_val_of_single rfl i q
theorem rhs_B_1 (i : S64x2048.Idx) (q : dot_S64x2048_S2048x2048_S64x2048_1_0_0_1_n_n.contr.Idx) :
    (dot_S64x2048_S2048x2048_S64x2048_1_0_0_1_n_n.rhsIdx i q 1).val = (i 1).val := by
  unfold DotDims.rhsIdx
  rw [dif_neg (show ¬(1 : Fin S2048x2048.rank) ∈ dot_S64x2048_S2048x2048_S64x2048_1_0_0_1_n_n.rhsBatch by decide), dif_pos (show (1 : Fin S2048x2048.rank) ∈ dot_S64x2048_S2048x2048_S64x2048_1_0_0_1_n_n.rhsNonContracting by decide)]
  rfl

/-- Entry (i, j) of H · A is ∑ᵤ H[i,u] · A[u,j], whatever the two operands' formats. -/
theorem matmul_B {φ₁ φ₂ : FTy} (l : FVec Ideal S64x2048 φ₁) (r : FVec Ideal S2048x2048 φ₂) (i : Fin 64) (j : Fin 2048) :
    matmul dot_S64x2048_S2048x2048_S64x2048_1_0_0_1_n_n none l r (constant S64x2048 .f32 0x00000000#32) (ix2 i j)
      = ∑ k : Fin 2048, l (ix2 i k) * r (ix2 k j) := by
  simp only [matmul]
  rw [Ideal.matmul_constant_zero_apply, ← Equiv.sum_comp (ValueIdx.contrEquiv1 dot_S64x2048_S2048x2048_S64x2048_1_0_0_1_n_n 2048 rfl rfl).symm]
  refine Finset.sum_congr rfl fun k _ => ?_
  have hk := ValueIdx.contrEquiv1_symm_val dot_S64x2048_S2048x2048_S64x2048_1_0_0_1_n_n 2048 rfl rfl k
  have el : dot_S64x2048_S2048x2048_S64x2048_1_0_0_1_n_n.lhsIdx (ix2 i j) ((ValueIdx.contrEquiv1 dot_S64x2048_S2048x2048_S64x2048_1_0_0_1_n_n 2048 rfl rfl).symm k) = ix2 i k := funext fun a => Fin.ext (by
    match a with
    | ⟨0, _⟩ => exact lhs_B_0 _ _
    | ⟨1, _⟩ => exact (lhs_B_1 _ _).trans hk)
  have er : dot_S64x2048_S2048x2048_S64x2048_1_0_0_1_n_n.rhsIdx (ix2 i j) ((ValueIdx.contrEquiv1 dot_S64x2048_S2048x2048_S64x2048_1_0_0_1_n_n 2048 rfl rfl).symm k) = ix2 k j := funext fun a => Fin.ext (by
    match a with
    | ⟨0, _⟩ => exact (rhs_B_0 _ _).trans hk
    | ⟨1, _⟩ => exact rhs_B_1 _ _)
  rw [el, er]

/-! ## The product [64,64] · [64,2048] -/

theorem lhs_C_0 (i : S64x2048.Idx) (q : dot_S64x64_S64x2048_S64x2048_1_0_0_1_n_n.contr.Idx) :
    (dot_S64x64_S64x2048_S64x2048_1_0_0_1_n_n.lhsIdx i q 0).val = (i 0).val := by
  unfold DotDims.lhsIdx
  rw [dif_neg (show ¬(0 : Fin S64x64.rank) ∈ dot_S64x64_S64x2048_S64x2048_1_0_0_1_n_n.lhsBatch by decide), dif_pos (show (0 : Fin S64x64.rank) ∈ dot_S64x64_S64x2048_S64x2048_1_0_0_1_n_n.lhsNonContracting by decide)]
  rfl
theorem lhs_C_1 (i : S64x2048.Idx) (q : dot_S64x64_S64x2048_S64x2048_1_0_0_1_n_n.contr.Idx) :
    (dot_S64x64_S64x2048_S64x2048_1_0_0_1_n_n.lhsIdx i q 1).val = (q ⟨0, by decide⟩).val :=
  dot_S64x64_S64x2048_S64x2048_1_0_0_1_n_n.lhsIdx_val_of_single rfl i q
theorem rhs_C_0 (i : S64x2048.Idx) (q : dot_S64x64_S64x2048_S64x2048_1_0_0_1_n_n.contr.Idx) :
    (dot_S64x64_S64x2048_S64x2048_1_0_0_1_n_n.rhsIdx i q 0).val = (q ⟨0, by decide⟩).val :=
  dot_S64x64_S64x2048_S64x2048_1_0_0_1_n_n.rhsIdx_val_of_single rfl i q
theorem rhs_C_1 (i : S64x2048.Idx) (q : dot_S64x64_S64x2048_S64x2048_1_0_0_1_n_n.contr.Idx) :
    (dot_S64x64_S64x2048_S64x2048_1_0_0_1_n_n.rhsIdx i q 1).val = (i 1).val := by
  unfold DotDims.rhsIdx
  rw [dif_neg (show ¬(1 : Fin S64x2048.rank) ∈ dot_S64x64_S64x2048_S64x2048_1_0_0_1_n_n.rhsBatch by decide), dif_pos (show (1 : Fin S64x2048.rank) ∈ dot_S64x64_S64x2048_S64x2048_1_0_0_1_n_n.rhsNonContracting by decide)]
  rfl

/-- Entry (i, j) of W · S is ∑ₖ W[i,k] · S[k,j]. -/
theorem matmul_C {φ₁ φ₂ : FTy} (l : FVec Ideal S64x64 φ₁) (r : FVec Ideal S64x2048 φ₂) (i : Fin 64) (j : Fin 2048) :
    matmul dot_S64x64_S64x2048_S64x2048_1_0_0_1_n_n none l r (constant S64x2048 .f32 0x00000000#32) (ix2 i j)
      = ∑ k : Fin 64, l (ix2 i k) * r (ix2 k j) := by
  simp only [matmul]
  rw [Ideal.matmul_constant_zero_apply, ← Equiv.sum_comp (ValueIdx.contrEquiv1 dot_S64x64_S64x2048_S64x2048_1_0_0_1_n_n 64 rfl rfl).symm]
  refine Finset.sum_congr rfl fun k _ => ?_
  have hk := ValueIdx.contrEquiv1_symm_val dot_S64x64_S64x2048_S64x2048_1_0_0_1_n_n 64 rfl rfl k
  have el : dot_S64x64_S64x2048_S64x2048_1_0_0_1_n_n.lhsIdx (ix2 i j) ((ValueIdx.contrEquiv1 dot_S64x64_S64x2048_S64x2048_1_0_0_1_n_n 64 rfl rfl).symm k) = ix2 i k := funext fun a => Fin.ext (by
    match a with
    | ⟨0, _⟩ => exact lhs_C_0 _ _
    | ⟨1, _⟩ => exact (lhs_C_1 _ _).trans hk)
  have er : dot_S64x64_S64x2048_S64x2048_1_0_0_1_n_n.rhsIdx (ix2 i j) ((ValueIdx.contrEquiv1 dot_S64x64_S64x2048_S64x2048_1_0_0_1_n_n 64 rfl rfl).symm k) = ix2 k j := funext fun a => Fin.ext (by
    match a with
    | ⟨0, _⟩ => exact (rhs_C_0 _ _).trans hk
    | ⟨1, _⟩ => exact rhs_C_1 _ _)
  rw [el, er]

/-! ## The product [192,64] · [64,2048] (the three stacked gates) -/

theorem lhs_D_0 (i : S192x2048.Idx) (q : dot_S192x64_S64x2048_S192x2048_1_0_0_1_n_n.contr.Idx) :
    (dot_S192x64_S64x2048_S192x2048_1_0_0_1_n_n.lhsIdx i q 0).val = (i 0).val := by
  unfold DotDims.lhsIdx
  rw [dif_neg (show ¬(0 : Fin S192x64.rank) ∈ dot_S192x64_S64x2048_S192x2048_1_0_0_1_n_n.lhsBatch by decide), dif_pos (show (0 : Fin S192x64.rank) ∈ dot_S192x64_S64x2048_S192x2048_1_0_0_1_n_n.lhsNonContracting by decide)]
  rfl
theorem lhs_D_1 (i : S192x2048.Idx) (q : dot_S192x64_S64x2048_S192x2048_1_0_0_1_n_n.contr.Idx) :
    (dot_S192x64_S64x2048_S192x2048_1_0_0_1_n_n.lhsIdx i q 1).val = (q ⟨0, by decide⟩).val :=
  dot_S192x64_S64x2048_S192x2048_1_0_0_1_n_n.lhsIdx_val_of_single rfl i q
theorem rhs_D_0 (i : S192x2048.Idx) (q : dot_S192x64_S64x2048_S192x2048_1_0_0_1_n_n.contr.Idx) :
    (dot_S192x64_S64x2048_S192x2048_1_0_0_1_n_n.rhsIdx i q 0).val = (q ⟨0, by decide⟩).val :=
  dot_S192x64_S64x2048_S192x2048_1_0_0_1_n_n.rhsIdx_val_of_single rfl i q
theorem rhs_D_1 (i : S192x2048.Idx) (q : dot_S192x64_S64x2048_S192x2048_1_0_0_1_n_n.contr.Idx) :
    (dot_S192x64_S64x2048_S192x2048_1_0_0_1_n_n.rhsIdx i q 1).val = (i 1).val := by
  unfold DotDims.rhsIdx
  rw [dif_neg (show ¬(1 : Fin S64x2048.rank) ∈ dot_S192x64_S64x2048_S192x2048_1_0_0_1_n_n.rhsBatch by decide), dif_pos (show (1 : Fin S64x2048.rank) ∈ dot_S192x64_S64x2048_S192x2048_1_0_0_1_n_n.rhsNonContracting by decide)]
  rfl

/-- Entry (i, j) of W · M is ∑ₖ W[i,k] · M[k,j]. -/
theorem matmul_D {φ₁ φ₂ : FTy} (l : FVec Ideal S192x64 φ₁) (r : FVec Ideal S64x2048 φ₂) (i : Fin 192) (j : Fin 2048) :
    matmul dot_S192x64_S64x2048_S192x2048_1_0_0_1_n_n none l r (constant S192x2048 .f32 0x00000000#32) (ix2 i j)
      = ∑ k : Fin 64, l (ix2 i k) * r (ix2 k j) := by
  simp only [matmul]
  rw [Ideal.matmul_constant_zero_apply, ← Equiv.sum_comp (ValueIdx.contrEquiv1 dot_S192x64_S64x2048_S192x2048_1_0_0_1_n_n 64 rfl rfl).symm]
  refine Finset.sum_congr rfl fun k _ => ?_
  have hk := ValueIdx.contrEquiv1_symm_val dot_S192x64_S64x2048_S192x2048_1_0_0_1_n_n 64 rfl rfl k
  have el : dot_S192x64_S64x2048_S192x2048_1_0_0_1_n_n.lhsIdx (ix2 i j) ((ValueIdx.contrEquiv1 dot_S192x64_S64x2048_S192x2048_1_0_0_1_n_n 64 rfl rfl).symm k) = ix2 i k := funext fun a => Fin.ext (by
    match a with
    | ⟨0, _⟩ => exact lhs_D_0 _ _
    | ⟨1, _⟩ => exact (lhs_D_1 _ _).trans hk)
  have er : dot_S192x64_S64x2048_S192x2048_1_0_0_1_n_n.rhsIdx (ix2 i j) ((ValueIdx.contrEquiv1 dot_S192x64_S64x2048_S192x2048_1_0_0_1_n_n 64 rfl rfl).symm k) = ix2 k j := funext fun a => Fin.ext (by
    match a with
    | ⟨0, _⟩ => exact (rhs_D_0 _ _).trans hk
    | ⟨1, _⟩ => exact rhs_D_1 _ _)
  rw [el, er]

/-! ## A column broadcast along the rows -/

/-- A [64,1] column broadcast to [64,2048] reads, at (p, q), the column's entry p. -/
theorem bcast64_apply {α : Type} (v : S64x1.Idx → α) (h : S64x1.Broadcasts S64x2048) (p : Fin 64) (q : Fin 2048) :
    broadcastTo S64x2048 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A [192,1] column broadcast to [192,2048] reads, at (p, q), the column's entry p. -/
theorem bcast192_apply {α : Type} (v : S192x1.Idx → α) (h : S192x1.Broadcasts S192x2048) (p : Fin 192) (q : Fin 2048) :
    broadcastTo S192x2048 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## The three blocks of 64 rows of the 192 stacked rows -/

/-- Rows 0 … 63. -/
theorem sliceLo_apply {α : Type} (X : S192x2048.Idx → α) (h : S192x2048.Slices ![0, 0] S64x2048) (d : Fin 64) (n : Fin 2048) :
    extractStridedSlice S64x2048 ![0, 0] X h (ix2 d n) = X (ix2 (⟨d.val, by omega⟩ : Fin 192) n) :=
  slice2_axis0_apply 0 X h d n _ (Nat.zero_add _).symm

/-- Rows 64 … 127. -/
theorem sliceMid_apply {α : Type} (X : S192x2048.Idx → α) (h : S192x2048.Slices ![64, 0] S64x2048) (d : Fin 64) (n : Fin 2048) :
    extractStridedSlice S64x2048 ![64, 0] X h (ix2 d n) = X (ix2 (⟨64 + d.val, by omega⟩ : Fin 192) n) :=
  slice2_axis0_apply 64 X h d n _ rfl

/-- Rows 128 … 191. -/
theorem sliceHi_apply {α : Type} (X : S192x2048.Idx → α) (h : S192x2048.Slices ![128, 0] S64x2048) (d : Fin 64) (n : Fin 2048) :
    extractStridedSlice S64x2048 ![128, 0] X h (ix2 d n) = X (ix2 (⟨128 + d.val, by omega⟩ : Fin 192) n) :=
  slice2_axis0_apply 128 X h d n _ rfl

end Cert.GraphEnc.KernelOps

end
-- ==== Proof.KernelPay.lean ====
/-
  Each pure value of the kernel body read at one entry, over arbitrary operands: the embedding
  layer, the adjacency block re-shaped, the input-side and state-side gate pre-activations, and
  the gated update.  Every lemma pushes the entry's coordinates through one value's operations,
  down to the entries of that value's operands.
-/
import proofs.«129612_g77850577207767_cont_9to1c4b_578_26_alg».proof.Proof.KernelOps
import proofs.«129612_g77850577207767_cont_9to1c4b_578_26_alg».proof.Proof.Spec

noncomputable section

namespace Cert.GraphEnc.KernelPay

open Idealize.ShloMosaic Idealize.ShloMosaic.ValueIdx Cert.KernelIdeal Cert.KernelIdeal.Gen Cert.GraphEnc Cert.GraphEnc.KernelOps

/-! ## The two gate functions at an entry -/

/-- The logistic function of a block, entry by entry. -/
theorem logistic_apply {s : Shape} {φ : FTy} (x : FVec Ideal s φ) (i : s.Idx) : logistic x i = Ideal.logistic (x i) := rfl
/-- The hyperbolic tangent of a block, entry by entry. -/
theorem tanh_apply {s : Shape} {φ : FTy} (x : FVec Ideal s φ) (i : s.Idx) : tanh x i = Ideal.tanh (x i) := rfl

/-! ## The embedding layer -/

/-- Entry (d, n) of the first value is the embedding layer of node n, feature d. -/
theorem pay3_apply (v3 : Vec Ideal S1x2048x128 .f32) (v5 : Vec Ideal S64x128 .f32) (v7 : Vec Ideal S64x1 .f32) (d : Fin 64) (n : Fin 2048) :
    k0_pay3 (F := Ideal) v3 v5 v7 (ix2 d n)
      = embed (fun e k => v5 (ix2 e k)) (fun e => v7 (ix2 e (0 : Fin 1))) (fun n k => v3 (ix3 (0 : Fin 1) n k)) d n := by
  unfold k0_pay3 embed relu
  rw [maximumf_apply, addf_apply, matmul_A, bcast64_apply, shapeCast_self]
  simp only [shapeCast_1ab_ab_apply]
  rfl

/-! ## The adjacency block re-shaped -/

/-- Entry (u, v) of the adjacency operand is the block's entry (0, u, v): the narrowing of the format is the identity on exact values. -/
theorem pay2_apply (v0 : Vec Ideal S1x2048x2048 .f32) (u v : Fin 2048) :
    k0_pay2 (F := Ideal) v0 (ix2 u v) = v0 (ix3 (0 : Fin 1) u v) := by
  unfold k0_pay2
  rw [truncf_apply, shapeCast_1ab_ab_apply]

/-! ## The gated update -/

/-- The update from the input-side pre-activations gi (bias included), the state-side products gh with their bias column
    added here, and the old state. -/
theorem pay6_apply (v12 : FVec Ideal S64x2048 .f32) (v29 v31 : FVec Ideal S192x2048 .f32) (v32 : Vec Ideal S192x1 .f32) (d : Fin 64) (n : Fin 2048) :
    k0_pay6 (F := Ideal) v12 v29 v31 v32 (ix2 d n)
      = gru (fun j n => v29 (ix2 j n)) (fun j n => v31 (ix2 j n) + v32 (ix2 j (0 : Fin 1))) (fun d n => v12 (ix2 d n)) d n := by
  unfold k0_pay6 gru
  simp only [addf_apply, mulf_apply, subf_apply, logistic_apply, tanh_apply, broadcast_apply, sliceLo_apply, sliceMid_apply, sliceHi_apply, bcast192_apply, shapeCast_self]
  rfl

/-- The same update at the end of the second round, stored with a unit leading axis. -/
theorem pay1_apply (v53 : FVec Ideal S64x2048 .f32) (v70 v72 : FVec Ideal S192x2048 .f32) (v73 : Vec Ideal S192x1 .f32) (d : Fin 64) (n : Fin 2048) :
    k0_pay1 (F := Ideal) v53 v70 v72 v73 (ix3 (0 : Fin 1) d n)
      = gru (fun j n => v70 (ix2 j n)) (fun j n => v72 (ix2 j n) + v73 (ix2 j (0 : Fin 1))) (fun d n => v53 (ix2 d n)) d n := by
  unfold k0_pay1 gru
  rw [shapeCast_ab_1ab_apply]
  simp only [addf_apply, mulf_apply, subf_apply, logistic_apply, tanh_apply, broadcast_apply, sliceLo_apply, sliceMid_apply, sliceHi_apply, bcast192_apply, shapeCast_self]
  rfl

/-! ## The gate pre-activations -/

/-- The input side of a round over an arbitrary state h and adjacency operand a: the neighbour sum h · a added to h,
    the message layer, then the three stacked gates' rows with their bias column. -/
theorem gateI_apply (h : FVec Ideal S64x2048 .f32) (a : FVec Ideal S2048x2048 .bf16) (v15 : Vec Ideal S64x64 .f32) (v18 : Vec Ideal S64x1 .f32)
    (v24 : Vec Ideal S192x64 .f32) (v26 : Vec Ideal S192x1 .f32) (j : Fin 192) (n : Fin 2048) :
    addf (matmul (φ₁ := .f32) dot_S192x64_S64x2048_S192x2048_1_0_0_1_n_n none v24
        (maximumf (addf (matmul (φ₁ := .f32) dot_S64x64_S64x2048_S64x2048_1_0_0_1_n_n none v15
            (addf h (matmul dot_S64x2048_S2048x2048_S64x2048_1_0_0_1_n_n none (truncf .bf16 h bitsLt_bf16_f32) a (constant S64x2048 .f32 0x00000000#32)))
            (constant S64x2048 .f32 0x00000000#32))
          (broadcastTo S64x2048 (shapeCast S64x1 v18 shapeCasts_S64x1_S64x1) broadcasts_S64x1_S64x2048))
          (broadcast S64x2048 (Scalar.ofBits (F := Ideal) .f32 0x00000000#32)))
        (constant S192x2048 .f32 0x00000000#32))
      (broadcastTo S192x2048 (shapeCast S192x1 v26 shapeCasts_S192x1_S192x1) broadcasts_S192x1_S192x2048) (ix2 j n)
      = gateI (fun u v => a (ix2 u v)) (fun e k => v15 (ix2 e k)) (fun e => v18 (ix2 e (0 : Fin 1)))
          (fun j e => v24 (ix2 j e)) (fun j => v26 (ix2 j (0 : Fin 1))) (fun d n => h (ix2 d n)) j n := by
  unfold gateI lin3 msg agg relu
  simp only [addf_apply, maximumf_apply, broadcast_apply, matmul_D, matmul_C, matmul_B, truncf_apply, bcast64_apply, bcast192_apply, shapeCast_self]
  rfl

/-- The first round's input side: over the embedding and the re-shaped adjacency block. -/
theorem pay4_apply (v0 : Vec Ideal S1x2048x2048 .f32) (v3 : Vec Ideal S1x2048x128 .f32) (v5 : Vec Ideal S64x128 .f32) (v7 : Vec Ideal S64x1 .f32)
    (v15 : Vec Ideal S64x64 .f32) (v18 : Vec Ideal S64x1 .f32) (v24 : Vec Ideal S192x64 .f32) (v26 : Vec Ideal S192x1 .f32) (j : Fin 192) (n : Fin 2048) :
    k0_pay4 (F := Ideal) v0 v3 v5 v7 v15 v18 v24 v26 (ix2 j n)
      = gateI (fun u v => k0_pay2 (F := Ideal) v0 (ix2 u v)) (fun e k => v15 (ix2 e k)) (fun e => v18 (ix2 e (0 : Fin 1)))
          (fun j e => v24 (ix2 j e)) (fun j => v26 (ix2 j (0 : Fin 1))) (fun d n => k0_pay3 (F := Ideal) v3 v5 v7 (ix2 d n)) j n := by
  unfold k0_pay4
  exact gateI_apply (k0_pay3 v3 v5 v7) (k0_pay2 v0) v15 v18 v24 v26 j n

/-- The second round's input side: over the first round's state. -/
theorem pay7_apply (v2 : FVec Ideal S2048x2048 .bf16) (v12 : FVec Ideal S64x2048 .f32) (v29 v31 : FVec Ideal S192x2048 .f32) (v32 : Vec Ideal S192x1 .f32)
    (v56 : Vec Ideal S64x64 .f32) (v59 : Vec Ideal S64x1 .f32) (v65 : Vec Ideal S192x64 .f32) (v67 : Vec Ideal S192x1 .f32) (j : Fin 192) (n : Fin 2048) :
    k0_pay7 (F := Ideal) v2 v12 v29 v31 v32 v56 v59 v65 v67 (ix2 j n)
      = gateI (fun u v => v2 (ix2 u v)) (fun e k => v56 (ix2 e k)) (fun e => v59 (ix2 e (0 : Fin 1)))
          (fun j e => v65 (ix2 j e)) (fun j => v67 (ix2 j (0 : Fin 1))) (fun d n => k0_pay6 (F := Ideal) v12 v29 v31 v32 (ix2 d n)) j n := by
  unfold k0_pay7
  exact gateI_apply (k0_pay6 v12 v29 v31 v32) v2 v56 v59 v65 v67 j n

/-- The first round's state side, without its bias: the three gates' rows of the embedding. -/
theorem pay5_apply (v3 : Vec Ideal S1x2048x128 .f32) (v5 : Vec Ideal S64x128 .f32) (v7 : Vec Ideal S64x1 .f32) (v30 : Vec Ideal S192x64 .f32) (j : Fin 192) (n : Fin 2048) :
    k0_pay5 (F := Ideal) v3 v5 v7 v30 (ix2 j n)
      = lin3 (fun j e => v30 (ix2 j e)) (fun e n => k0_pay3 (F := Ideal) v3 v5 v7 (ix2 e n)) j n := by
  unfold k0_pay5 lin3
  exact matmul_D v30 (k0_pay3 v3 v5 v7) j n

/-- The second round's state side, without its bias: the three gates' rows of the first round's state. -/
theorem pay8_apply (v12 : FVec Ideal S64x2048 .f32) (v29 v31 : FVec Ideal S192x2048 .f32) (v32 : Vec Ideal S192x1 .f32) (v71 : Vec Ideal S192x64 .f32) (j : Fin 192) (n : Fin 2048) :
    k0_pay8 (F := Ideal) v12 v29 v31 v32 v71 (ix2 j n)
      = lin3 (fun j e => v71 (ix2 j e)) (fun e n => k0_pay6 (F := Ideal) v12 v29 v31 v32 (ix2 e n)) j n := by
  unfold k0_pay8 lin3
  exact matmul_D v71 (k0_pay6 v12 v29 v31 v32) j n

end Cert.GraphEnc.KernelPay

end
-- ==== Proof.KernelBlock.lean ====
/-
  The body of the kernel on one graph's blocks computes the encoder of that graph
  (the specification's `enc`), entry by entry of the stored block.
-/
import proofs.«129612_g77850577207767_cont_9to1c4b_578_26_alg».proof.Proof.Gen.KernelIdeal.Frame
import proofs.«129612_g77850577207767_cont_9to1c4b_578_26_alg».proof.Proof.Spec
import proofs.«129612_g77850577207767_cont_9to1c4b_578_26_alg».proof.Proof.KernelPay
import Idealize.ShloMosaic.PureOps.Ideal.Laws
import Idealize.ShloMosaic.Lib.ValueIdx
import Idealize.ShloMosaic.Lib.ValueLayout
import Idealize.ShloMosaic.Lib.Pipeline.Value

noncomputable section

namespace Cert.GraphEnc.KernelBlock

open Idealize.ShloMosaic Idealize.ShloMosaic.ValueIdx Cert.KernelIdeal Cert.GraphEnc

/-- The zero offsets of a rank-2 block, as the constant function. -/
theorem hz2 : (![0, 0] : Fin 2 → Nat) = fun _ => 0 := funext fun a => by fin_cases a <;> rfl
/-- The zero offsets of a rank-3 block, as the constant function. -/
theorem hz3 : (![0, 0, 0] : Fin 3 → Nat) = fun _ => 0 := funext fun a => by fin_cases a <;> rfl

open Cert.KernelIdeal.Gen Cert.GraphEnc.KernelPay in
/-- The stored block is the last value of the body over the input blocks themselves: the one store covers the whole
    block and every load reads a whole block. -/
theorem out_eq_nest (x0 : Vec Ideal S1x2048x2048 .f32) (x1 : Vec Ideal S1x2048x128 .f32) (x2 : Vec Ideal S64x128 .f32)
    (x3 : Vec Ideal S64x1 .f32) (x4 : Vec Ideal S64x64 .f32) (x5 : Vec Ideal S64x1 .f32) (x6 x7 : Vec Ideal S192x64 .f32)
    (x8 x9 : Vec Ideal S192x1 .f32) :
    out0_10 (F := Ideal) x0 x1 x2 x3 x4 x5 x6 x7 x8 x9
      = k0_pay1 (k0_pay6 (k0_pay3 x1 x2 x3) (k0_pay4 x0 x1 x2 x3 x4 x5 x6 x8) (k0_pay5 x1 x2 x3 x7) x9)
          (k0_pay7 (k0_pay2 x0) (k0_pay3 x1 x2 x3) (k0_pay4 x0 x1 x2 x3 x4 x5 x6 x8) (k0_pay5 x1 x2 x3 x7) x9 x4 x5 x6 x8)
          (k0_pay8 (k0_pay3 x1 x2 x3) (k0_pay4 x0 x1 x2 x3 x4 x5 x6 x8) (k0_pay5 x1 x2 x3 x7) x9 x7) x9 := by
  unfold out0_10
  rw [View.canon_unit_zero hz3]
  simp only [View.ld_unit_zero (S := S1x2048x2048) hz3, View.ld_unit_zero (S := S1x2048x128) hz3,
    View.ld_unit_zero (S := S64x128) hz2, View.ld_unit_zero (S := S64x1) hz2, View.ld_unit_zero (S := S64x64) hz2,
    View.ld_unit_zero (S := S192x64) hz2, View.ld_unit_zero (S := S192x1) hz2]

open Cert.KernelIdeal.Gen Cert.GraphEnc.KernelPay in
/-- What the body leaves in the output block, at feature `d` and node `n`, is the encoder of the
    graph whose adjacency, features and parameters the ten input blocks hold. -/
theorem out_block (x0 : Vec Ideal S1x2048x2048 .f32) (x1 : Vec Ideal S1x2048x128 .f32) (x2 : Vec Ideal S64x128 .f32)
    (x3 : Vec Ideal S64x1 .f32) (x4 : Vec Ideal S64x64 .f32) (x5 : Vec Ideal S64x1 .f32) (x6 x7 : Vec Ideal S192x64 .f32)
    (x8 x9 : Vec Ideal S192x1 .f32) (d : Fin 64) (n : Fin 2048) :
    Cert.KernelIdeal.Gen.out0_10 (F := Ideal) x0 x1 x2 x3 x4 x5 x6 x7 x8 x9 (ix3 (0 : Fin 1) d n)
      = enc (fun u v => x0 (ix3 (0 : Fin 1) u v)) (fun n k => x1 (ix3 (0 : Fin 1) n k)) (fun e k => x2 (ix2 e k))
          (fun e => x3 (ix2 e (0 : Fin 1))) (fun e k => x4 (ix2 e k)) (fun e => x5 (ix2 e (0 : Fin 1)))
          (fun j e => x6 (ix2 j e)) (fun j e => x7 (ix2 j e)) (fun j => x8 (ix2 j (0 : Fin 1))) (fun j => x9 (ix2 j (0 : Fin 1))) d n := by
  -- the adjacency operand and the embedding, as functions of coordinates
  have e2 : (fun u v => k0_pay2 (F := Ideal) x0 (ix2 u v)) = fun u v => x0 (ix3 (0 : Fin 1) u v) :=
    funext fun u => funext fun v => pay2_apply x0 u v
  have e3 : (fun d n => k0_pay3 (F := Ideal) x1 x2 x3 (ix2 d n))
      = embed (fun e k => x2 (ix2 e k)) (fun e => x3 (ix2 e (0 : Fin 1))) (fun n k => x1 (ix3 (0 : Fin 1) n k)) :=
    funext fun d => funext fun n => pay3_apply x1 x2 x3 d n
  -- the first round
  have e4 : (fun j n => k0_pay4 (F := Ideal) x0 x1 x2 x3 x4 x5 x6 x8 (ix2 j n))
      = gateI (fun u v => x0 (ix3 (0 : Fin 1) u v)) (fun e k => x4 (ix2 e k)) (fun e => x5 (ix2 e (0 : Fin 1)))
          (fun j e => x6 (ix2 j e)) (fun j => x8 (ix2 j (0 : Fin 1)))
          (embed (fun e k => x2 (ix2 e k)) (fun e => x3 (ix2 e (0 : Fin 1))) (fun n k => x1 (ix3 (0 : Fin 1) n k))) := by
    funext j n; rw [pay4_apply, e2, e3]
  have e5 : ∀ (j : Fin 192) (n : Fin 2048), k0_pay5 (F := Ideal) x1 x2 x3 x7 (ix2 j n)
      = lin3 (fun j e => x7 (ix2 j e)) (embed (fun e k => x2 (ix2 e k)) (fun e => x3 (ix2 e (0 : Fin 1))) (fun n k => x1 (ix3 (0 : Fin 1) n k))) j n := by
    intro j n; rw [pay5_apply, e3]
  have e6 : (fun d n => k0_pay6 (F := Ideal) (k0_pay3 x1 x2 x3) (k0_pay4 x0 x1 x2 x3 x4 x5 x6 x8) (k0_pay5 x1 x2 x3 x7) x9 (ix2 d n))
      = step (fun u v => x0 (ix3 (0 : Fin 1) u v)) (fun e k => x4 (ix2 e k)) (fun e => x5 (ix2 e (0 : Fin 1)))
          (fun j e => x6 (ix2 j e)) (fun j e => x7 (ix2 j e)) (fun j => x8 (ix2 j (0 : Fin 1))) (fun j => x9 (ix2 j (0 : Fin 1)))
          (embed (fun e k => x2 (ix2 e k)) (fun e => x3 (ix2 e (0 : Fin 1))) (fun n k => x1 (ix3 (0 : Fin 1) n k))) := by
    funext d n; rw [pay6_apply, e3, e4]; simp only [e5]; rfl
  -- the second round
  rw [out_eq_nest, pay1_apply]
  simp only [pay7_apply, pay8_apply]
  rw [e2, e6]
  rfl

end Cert.GraphEnc.KernelBlock

end
-- ==== Proof.KernelArray.lean ====
/-
  The kernel program's result array is the specification's `result` of its arguments.

  Each grid point writes back one [1, 64, 2048] block: the encoder of graph `t` in the
  feature × node layout.  The four blocks tile the [4, 64, 2048] output of the region, and
  the host then swaps the last two axes and flattens graph and node into one row index,
  which is exactly the row-major [graph · 2048 + node, feature] form of `result`.
-/
import proofs.«129612_g77850577207767_cont_9to1c4b_578_26_alg».proof.Proof.KernelArrayA
import proofs.«129612_g77850577207767_cont_9to1c4b_578_26_alg».proof.Proof.KernelBlock

noncomputable section

namespace Cert.GraphEnc.KernelArray

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.GraphEnc

variable (m : (ℓ : Loc nD τ sig) → Buf (Elt Ideal) ℓ) (ρ : Dev nD → PrngReg)

/-- The region's output array: entry [g, d, n] is feature `d` of node `n` of graph `g`. -/
def regionOut (c : Dev nD) : S4x64x2048.Idx → EReal := fun j =>
  encOf (aAdj m c) (aX m c) (aW0 m c) (aB0 m c) (aWg m c) (aBg m c) (aWih m c) (aWhh m c) (aBih m c) (aBhh m c) (j 0) (j 1) (j 2)

/-- What point `t` writes back is block `t` of `regionOut`. -/
theorem flushed_eq (c : Dev nD) (t : Fin cfg0.N) :
    (dats m 0 c).flushed 10 t = ((cfg0.win 10).blk t).view.read (Elt Ideal) (regionOut m c) := by
  show (cfg0.win 10).cut (grid0.coords t) ((dats m 0 c).after 10 t) = _
  rw [after0_10]
  funext y
  obtain ⟨u, d, n, rfl⟩ : ∃ (u : Fin 1) (d : Fin 64) (n : Fin 2048), y = ix3 u d n := ⟨y 0, y 1, y 2, eq_ix3 y⟩
  obtain rfl : u = 0 := Subsingleton.elim _ _
  show out0_10 (iblk m c 0 t) (iblk m c 1 t) (iblk m c 2 t) (iblk m c 3 t) (iblk m c 4 t) (iblk m c 5 t) (iblk m c 6 t) (iblk m c 7 t) (iblk m c 8 t) (iblk m c 9 t) (ix3 (0 : Fin 1) d n)
      = regionOut m c (((cfg0.win 10).blk t).view.emb (ix3 (0 : Fin 1) d n))
  refine (KernelBlock.out_block (iblk m c 0 t) (iblk m c 1 t) (iblk m c 2 t) (iblk m c 3 t) (iblk m c 4 t) (iblk m c 5 t) (iblk m c 6 t) (iblk m c 7 t) (iblk m c 8 t) (iblk m c 9 t) d n).trans ?_
  have he : ((cfg0.win 10).blk t).view.emb (ix3 (0 : Fin 1) d n) = ix3 (gpt t) d n := by
    obtain ⟨-, -, -, -, -, -, -, -, -, -, ⟨e0, e1, e2⟩⟩ := idx_facts t
    funext a; apply Fin.ext
    match a with
    | ⟨0, _⟩ => show win0_10.index t (0 : Fin 3) * 1 + 1 * 0 = t.val; omega
    | ⟨1, _⟩ => show win0_10.index t (1 : Fin 3) * 64 + 1 * d.val = d.val; omega
    | ⟨2, _⟩ => show win0_10.index t (2 : Fin 3) * 2048 + 1 * n.val = n.val; omega
  rw [he]
  unfold regionOut encOf
  simp only [blk_adj, blk_x, blk_w0, blk_b0, blk_wg, blk_bg, blk_wih, blk_whh, blk_bih, blk_bhh]

/-- An index of the output array lies in point `t`'s block iff each coordinate is in the block's range. -/
theorem mem_blk (t : Fin cfg0.N) (i : S4x64x2048.Idx) :
    i ∈ ((cfg0.win 10).blk t).view.set ↔ ∀ a : Fin 3, win0_10.index t a * S1x64x2048.size a ≤ (i a).val ∧ (i a).val < win0_10.index t a * S1x64x2048.size a + S1x64x2048.size a := by
  show i ∈ ((View.whole main_v4).slice (win0_10.rect t)).set ↔ _
  rw [View.set_slice_whole, Rect.mem_set_unit]
  exact Iff.rfl

/-- Every index of the output array is in the block of the point of its graph. -/
theorem cover (i : S4x64x2048.Idx) : ∃ t : Fin cfg0.N, (cfg0.win 10).flush t = true ∧ i ∈ ((cfg0.win 10).blk t).view.set := by
  refine ⟨⟨(i 0).val, lt_of_lt_of_eq (i 0).isLt (show (4 : Nat) = cfg0.N from N_0.symm)⟩, flush0_10 _, ?_⟩
  rw [mem_blk]
  obtain ⟨-, -, -, -, -, -, -, -, -, -, ⟨e0, e1, e2⟩⟩ := idx_facts ⟨(i 0).val, lt_of_lt_of_eq (i 0).isLt (show (4 : Nat) = cfg0.N from N_0.symm)⟩
  have h1 : (i 1).val < 64 := (i 1).isLt
  have h2 : (i 2).val < 2048 := (i 2).isLt
  intro a
  match a with
  | ⟨0, _⟩ => show win0_10.index _ (0 : Fin 3) * 1 ≤ (i 0).val ∧ (i 0).val < win0_10.index _ (0 : Fin 3) * 1 + 1; rw [e0]; show (i 0).val * 1 ≤ (i 0).val ∧ (i 0).val < (i 0).val * 1 + 1; omega
  | ⟨1, _⟩ => show win0_10.index _ (1 : Fin 3) * 64 ≤ (i 1).val ∧ (i 1).val < win0_10.index _ (1 : Fin 3) * 64 + 64; rw [e1]; omega
  | ⟨2, _⟩ => show win0_10.index _ (2 : Fin 3) * 2048 ≤ (i 2).val ∧ (i 2).val < win0_10.index _ (2 : Fin 3) * 2048 + 2048; rw [e2]; omega

/-- So the region's output array ends holding `regionOut`. -/
theorem final_out (c : Dev nD) : (dats m 0 c).arrAt 10 cfg0.N = regionOut m c :=
  (dats m 0 c).arrAt_eq_of_cover 10 (regionOut m c) (fun t _ => flushed_eq m c t) cover

/-! ## The host's last two lines: swap feature and node, flatten graph and node -/

/-- The result buffer after the host tail is the specification's result array of the arguments. -/
theorem tail_eq (c : Dev nD) :
    (Pipeline.afterTail₀ cfgs (dats m) 0 (V0 m) [hostOps1] c main_v6 : S8192x64.Idx → EReal)
      = result (aAdj m c) (aX m c) (aW0 m c) (aB0 m c) (aWg m c) (aBg m c) (aWih m c) (aWhh m c) (aBih m c) (aBhh m c) := by
  unfold Pipeline.afterTail₀
  show StableHlo.after hostOps1 _ (Proc.devRef .tc main_v6) = _
  after_results
  rw [(Pipeline.withArrays_arr spec0 launch0.win.arr_inj c _ _ 10).trans (final_out m c)]
  funext i
  obtain ⟨r, d, rfl⟩ : ∃ (r : Fin 8192) (d : Fin 64), i = ix2 r d := ⟨i 0, i 1, eq_ix2 i⟩
  refine (shapeCast_apply _ shapeCasts_S4x2048x64_S8192x64 (ix2 r d) (ix3 (gOf r) (nOf r) d) ?_).trans ?_
  · rw [Shape.rowMajor_val_three, Shape.rowMajor_val_two]
    show (r.val / 2048 * 2048 + r.val % 2048) * 64 + d.val = r.val * 64 + d.val
    omega
  · rw [transpose_ix3_021_apply]
    rfl

/-! ## The run -/

/-- Every weakly fair execution of the kernel program ends with the result buffer at `result` of the
    arguments and the arguments unchanged. -/
theorem run : θ_run defs (onTc (τ := τ) (main (F := Ideal))) ⟨m, fun _ => 0, ρ⟩ fun r => ∀ c : Dev nD,
      r.2.mem ((c.tc : Thread nD τ).loc main_v6)
        = result (aAdj m c) (aX m c) (aW0 m c) (aB0 m c) (aWg m c) (aBg m c) (aWih m c) (aWhh m c) (aBih m c) (aBhh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨((h c).2 main_v6 (Pipeline.mem_restRefs_of main_v6 (by decide) (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).2 main_arg3 (Pipeline.mem_restRefs_of main_arg3 (by decide) (by decide))).trans (W_main_arg3 m (dats m) c),
       ((h c).1 4).trans (((dats m 0 c).arrAt_in 4 rfl _).trans ((A_eq m c 4).trans (V_main_arg4 m c))),
       ((h c).2 main_arg5 (Pipeline.mem_restRefs_of main_arg5 (by decide) (by decide))).trans (W_main_arg5 m (dats m) c),
       ((h c).1 6).trans (((dats m 0 c).arrAt_in 6 rfl _).trans ((A_eq m c 6).trans (V_main_arg6 m c))),
       ((h c).1 7).trans (((dats m 0 c).arrAt_in 7 rfl _).trans ((A_eq m c 7).trans (V_main_arg7 m c))),
       ((h c).2 main_arg8 (Pipeline.mem_restRefs_of main_arg8 (by decide) (by decide))).trans (W_main_arg8 m (dats m) c),
       ((h c).2 main_arg9 (Pipeline.mem_restRefs_of main_arg9 (by decide) (by decide))).trans (W_main_arg9 m (dats m) c)⟩)
    (run_main m ρ)

end Cert.GraphEnc.KernelArray

end
-- ==== Proof.RefEmbed.lean ====
/-
  The first layer of the reference program, read one entry at a time: row `g · 2048 + n`, column `d` of the
  stacked array after the input layer is the embedding of node `n` of graph `g` at feature `d`.
  Also the two facts about constants and row indices that every later layer uses.
-/
import proofs.«129612_g77850577207767_cont_9to1c4b_578_26_alg».proof.Proof.Gen.ReferenceIdeal.Read
import proofs.«129612_g77850577207767_cont_9to1c4b_578_26_alg».proof.Proof.Spec

noncomputable section

namespace Cert.GraphEnc.Ref

open Idealize.ShloMosaic Idealize.ShloMosaic.ValueIdx Cert.ReferenceIdeal Cert.ReferenceIdeal.Read Cert.GraphEnc

/-- The single-precision word of one denotes the number one. -/
theorem oneW_eq_one : Ideal.ofBits .f32 0x3F800000#32 = (1 : EReal) := by
  simp [Ideal.ofBits, Ideal.ieee, -EReal.coe_mul]; norm_num

/-- The sigmoid as the program spells it, one over one plus the exponential of the negation, is the logistic function. -/
theorem logistic_spelt (x : EReal) :
    Ideal.div (Ideal.ofBits .f32 0x3F800000#32) (Ideal.ofBits .f32 0x3F800000#32 + Ideal.exp (-x)) = Ideal.logistic x := by
  rw [oneW_eq_one]; rfl

/-- Every row-major index of the stacked array is (row of its graph and node, its column). -/
theorem row_eta (i : S8192x64.Idx) : ix2 (rowOf (gOf (i 0)) (nOf (i 0))) (i 1) = i := by
  funext a
  match a with
  | ⟨0, _⟩ => exact rowOf_gOf_nOf (i 0)
  | ⟨1, _⟩ => rfl

variable (x1 : (⟨S4x2048x128, .f32⟩ : BufTy).Contents (Elt Ideal))
  (x2 : (⟨S64x128, .f32⟩ : BufTy).Contents (Elt Ideal)) (x3 : (⟨S64, .f32⟩ : BufTy).Contents (Elt Ideal))

/-- The flattened feature array at row `g · 2048 + n` is graph `g`, node `n`. -/
theorem idx_v0_row (g : Fin 4) (n : Fin 2048) (d : Fin 64) (k : Fin 128) :
    idx_main_v0 (lidx_main_v2 (ix2 (rowOf g n) d) k) = ix3 g n k := by
  funext a
  match a with
  | ⟨0, _⟩ => exact Fin.ext (by show ((g.val * 2048 + n.val) * 128 + k.val) / 262144 = g.val; omega)
  | ⟨1, _⟩ => exact Fin.ext (by show ((g.val * 2048 + n.val) * 128 + k.val) / 128 % 2048 = n.val; omega)
  | ⟨2, _⟩ => exact Fin.ext (by show ((g.val * 2048 + n.val) * 128 + k.val) % 128 = k.val; omega)

theorem idx_v1_row (r : Fin 8192) (d : Fin 64) (k : Fin 128) :
    idx_main_v1 (ridx_main_v2 (ix2 r d) k) = ix2 d k := by
  funext a
  match a with
  | ⟨0, _⟩ => rfl
  | ⟨1, _⟩ => rfl

theorem idx_v3_row (r : Fin 8192) (d : Fin 64) :
    idx_main_v3 (idx_main_v4 (ix2 r d)) = ix1 d := by
  funext a
  match a with
  | ⟨0, _⟩ => rfl

/-- The input layer at row `g · 2048 + n`, column `d`. -/
theorem v6_at (g : Fin 4) (n : Fin 2048) (d : Fin 64) :
    val_main_v6 (F := Ideal) x1 x2 x3 (ix2 (rowOf g n) d) = embed (mat x2) (vec x3) (featOf x1 g) d n := by
  rw [val_main_v6_apply, val_main_v5_apply, val_main_v2_apply, val_main_v4_apply, val_main_v3_apply,
    val_main_call0_v0_apply, val_main_call0_cst_apply, idx_v3_row]
  simp only [val_main_v0_apply, val_main_v1_apply, idx_v0_row, idx_v1_row]
  show max ((∑ k : Fin 128, x1 (ix3 g n k) * x2 (ix2 d k)) + x3 (ix1 d)) zeroW = _
  unfold embed relu
  congr 2
  exact Finset.sum_congr rfl fun k _ => mul_comm _ _

/-- The input layer at any index. -/
theorem v6_eq (i : S8192x64.Idx) :
    val_main_v6 (F := Ideal) x1 x2 x3 i = embed (mat x2) (vec x3) (featOf x1 (gOf (i 0))) (i 1) (nOf (i 0)) := by
  exact (congrArg (val_main_v6 (F := Ideal) x1 x2 x3) (row_eta i)).symm.trans
    (v6_at x1 x2 x3 (gOf (i 0)) (nOf (i 0)) (i 1))

end Cert.GraphEnc.Ref

end
-- ==== Proof.RefGates1.lean ====
/-
  The first round of the reference program up to its two stacked pre-activations, one entry at a time.
  The state entering the round is the array left by the input layer; for graph `g` it is read as feature × node,
  `h d n` = entry (row `g · 2048 + n`, column `d`).  Then, entry by entry:
    the state plus the sum over in-neighbours      is  h d n + ∑ u, h d u · A u n,
    the message layer on it                         is  relu (∑ d, Wg e d · s d n + bg e),
    the input-side pre-activation at gate row j     is  ∑ e, Wih j e · m e n + bih j,
    the state-side pre-activation at gate row j     is  ∑ e, Whh j e · h e n + bhh j.
  The program multiplies state · weightᵀ where the specification multiplies weight · state; the factors commute.
-/
import proofs.«129612_g77850577207767_cont_9to1c4b_578_26_alg».proof.Proof.Gen.ReferenceIdeal.Read
import proofs.«129612_g77850577207767_cont_9to1c4b_578_26_alg».proof.Proof.Spec
import proofs.«129612_g77850577207767_cont_9to1c4b_578_26_alg».proof.Proof.RefEmbed

noncomputable section

namespace Cert.GraphEnc.Ref

open Idealize.ShloMosaic Idealize.ShloMosaic.ValueIdx Cert.ReferenceIdeal Cert.ReferenceIdeal.Read Cert.GraphEnc

variable (x0 : (⟨S4x2048x2048, .f32⟩ : BufTy).Contents (Elt Ideal)) (x1 : (⟨S4x2048x128, .f32⟩ : BufTy).Contents (Elt Ideal))
  (x2 : (⟨S64x128, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 x7 : (⟨S192x64, .f32⟩ : BufTy).Contents (Elt Ideal)) (x8 x9 : (⟨S192, .f32⟩ : BufTy).Contents (Elt Ideal))

/-- The state entering the round, for graph `g`, as feature × node. -/
abbrev hid6 (g : Fin 4) : Hid := fun d n => val_main_v6 (F := Ideal) x1 x2 x3 (ix2 (rowOf g n) d)

/-! ### Where each layout stage reads -/

theorem idx_v7_eq (g : Fin 4) (u : Fin 2048) (d : Fin 64) : idx_main_v7 (ix3 g u d) = ix2 (rowOf g u) d := by
  funext a
  match a with
  | ⟨0, _⟩ => exact Fin.ext (by show ((g.val * 2048 + u.val) * 64 + d.val) / 64 = g.val * 2048 + u.val; omega)
  | ⟨1, _⟩ => exact Fin.ext (by show ((g.val * 2048 + u.val) * 64 + d.val) % 64 = d.val; omega)

theorem lidx_v8_eq (g : Fin 4) (v : Fin 2048) (d : Fin 64) (k : Fin 2048) : lidx_main_v8 (ix3 g v d) k = ix3 g k v := by
  funext a
  match a with
  | ⟨0, _⟩ => rfl
  | ⟨1, _⟩ => rfl
  | ⟨2, _⟩ => rfl

theorem ridx_v8_eq (g : Fin 4) (v : Fin 2048) (d : Fin 64) (k : Fin 2048) : ridx_main_v8 (ix3 g v d) k = ix3 g k d := by
  funext a
  match a with
  | ⟨0, _⟩ => rfl
  | ⟨1, _⟩ => rfl
  | ⟨2, _⟩ => rfl

theorem idx_v9_eq (g : Fin 4) (n : Fin 2048) (d : Fin 64) : idx_main_v9 (ix2 (rowOf g n) d) = ix3 g n d := by
  funext a
  match a with
  | ⟨0, _⟩ => exact Fin.ext (by show ((g.val * 2048 + n.val) * 64 + d.val) / 131072 = g.val; omega)
  | ⟨1, _⟩ => exact Fin.ext (by show ((g.val * 2048 + n.val) * 64 + d.val) / 64 % 2048 = n.val; omega)
  | ⟨2, _⟩ => exact Fin.ext (by show ((g.val * 2048 + n.val) * 64 + d.val) % 64 = d.val; omega)

theorem lidx_v12_eq (r : Fin 8192) (e k : Fin 64) : lidx_main_v12 (ix2 r e) k = ix2 r k := by
  funext a
  match a with
  | ⟨0, _⟩ => rfl
  | ⟨1, _⟩ => rfl

theorem ridx_v12_eq (r : Fin 8192) (e k : Fin 64) : idx_main_v11 (ridx_main_v12 (ix2 r e) k) = ix2 e k := by
  funext a
  match a with
  | ⟨0, _⟩ => rfl
  | ⟨1, _⟩ => rfl

theorem idx_v13_eq (r : Fin 8192) (e : Fin 64) : idx_main_v13 (idx_main_v14 (ix2 r e)) = ix1 e := by
  funext a
  match a with
  | ⟨0, _⟩ => rfl

theorem lidx_v18_eq (r : Fin 8192) (j : Fin 192) (k : Fin 64) : lidx_main_v18 (ix2 r j) k = ix2 r k := by
  funext a
  match a with
  | ⟨0, _⟩ => rfl
  | ⟨1, _⟩ => rfl

theorem ridx_v18_eq (r : Fin 8192) (j : Fin 192) (k : Fin 64) : idx_main_v17 (ridx_main_v18 (ix2 r j) k) = ix2 j k := by
  funext a
  match a with
  | ⟨0, _⟩ => rfl
  | ⟨1, _⟩ => rfl

theorem idx_v19_eq (r : Fin 8192) (j : Fin 192) : idx_main_v19 (idx_main_v20 (ix2 r j)) = ix1 j := by
  funext a
  match a with
  | ⟨0, _⟩ => rfl

theorem lidx_v23_eq (r : Fin 8192) (j : Fin 192) (k : Fin 64) : lidx_main_v23 (ix2 r j) k = ix2 r k := by
  funext a
  match a with
  | ⟨0, _⟩ => rfl
  | ⟨1, _⟩ => rfl

theorem ridx_v23_eq (r : Fin 8192) (j : Fin 192) (k : Fin 64) : idx_main_v22 (ridx_main_v23 (ix2 r j) k) = ix2 j k := by
  funext a
  match a with
  | ⟨0, _⟩ => rfl
  | ⟨1, _⟩ => rfl

theorem idx_v24_eq (r : Fin 8192) (j : Fin 192) : idx_main_v24 (idx_main_v25 (ix2 r j)) = ix1 j := by
  funext a
  match a with
  | ⟨0, _⟩ => rfl

/-! ### The four layers -/

/-- The state plus its sum over in-neighbours. -/
theorem v10_at (g : Fin 4) (n : Fin 2048) (d : Fin 64) :
    val_main_v10 (F := Ideal) x0 x1 x2 x3 (ix2 (rowOf g n) d) = hid6 x1 x2 x3 g d n + agg (adjOf x0 g) (hid6 x1 x2 x3 g) d n := by
  rw [val_main_v10_apply, val_main_v9_apply, idx_v9_eq, val_main_v8_apply]
  simp only [lidx_v8_eq, ridx_v8_eq, val_main_v7_apply, idx_v7_eq]
  show val_main_v6 (F := Ideal) x1 x2 x3 (ix2 (rowOf g n) d) + ∑ k : Fin 2048, x0 (ix3 g k n) * val_main_v6 (F := Ideal) x1 x2 x3 (ix2 (rowOf g k) d) = _
  unfold agg
  congr 1
  exact Finset.sum_congr rfl fun k _ => mul_comm _ _

/-- The message layer. -/
theorem v16_at (g : Fin 4) (n : Fin 2048) (e : Fin 64) :
    val_main_v16 (F := Ideal) x0 x1 x2 x3 x4 x5 (ix2 (rowOf g n) e)
      = msg (mat x4) (vec x5) (fun d v => hid6 x1 x2 x3 g d v + agg (adjOf x0 g) (hid6 x1 x2 x3 g) d v) e n := by
  rw [val_main_v16_apply, val_main_v15_apply, val_main_v12_apply, val_main_v14_apply, val_main_v13_apply, val_main_call1_v0_apply, val_main_call1_cst_apply, idx_v13_eq]
  simp only [lidx_v12_eq, val_main_v11_apply, ridx_v12_eq, v10_at]
  show max ((∑ k : Fin 64, (hid6 x1 x2 x3 g k n + agg (adjOf x0 g) (hid6 x1 x2 x3 g) k n) * x4 (ix2 e k)) + x5 (ix1 e)) zeroW = _
  unfold msg relu
  congr 2
  exact Finset.sum_congr rfl fun k _ => mul_comm _ _

/-- The input-side pre-activation at gate row `j`. -/
theorem v21_at (g : Fin 4) (n : Fin 2048) (j : Fin 192) :
    val_main_v21 (F := Ideal) x0 x1 x2 x3 x4 x5 x6 x8 (ix2 (rowOf g n) j)
      = gateI (adjOf x0 g) (mat x4) (vec x5) (mat x6) (vec x8) (hid6 x1 x2 x3 g) j n := by
  rw [val_main_v21_apply, val_main_v18_apply, val_main_v20_apply, val_main_v19_apply, idx_v19_eq]
  simp only [lidx_v18_eq, val_main_v17_apply, ridx_v18_eq, v16_at]
  show (∑ k : Fin 64, msg (mat x4) (vec x5) (fun d v => hid6 x1 x2 x3 g d v + agg (adjOf x0 g) (hid6 x1 x2 x3 g) d v) k n * x6 (ix2 j k)) + x8 (ix1 j) = _
  unfold gateI lin3
  congr 1
  exact Finset.sum_congr rfl fun k _ => mul_comm _ _

/-- The state-side pre-activation at gate row `j`. -/
theorem v26_at (g : Fin 4) (n : Fin 2048) (j : Fin 192) :
    val_main_v26 (F := Ideal) x1 x2 x3 x7 x9 (ix2 (rowOf g n) j) = gateH (mat x7) (vec x9) (hid6 x1 x2 x3 g) j n := by
  rw [val_main_v26_apply, val_main_v23_apply, val_main_v25_apply, val_main_v24_apply, idx_v24_eq]
  simp only [lidx_v23_eq, val_main_v22_apply, ridx_v23_eq]
  show (∑ k : Fin 64, hid6 x1 x2 x3 g k n * x7 (ix2 j k)) + x9 (ix1 j) = _
  unfold gateH lin3
  congr 1
  exact Finset.sum_congr rfl fun k _ => mul_comm _ _

end Cert.GraphEnc.Ref

end
-- ==== Proof.RefStep1.lean ====
/-
  The gated update that closes the first round of the reference program, one entry at a time.
  The six column slices at offsets 0, 64 and 128 of the two stacked pre-activations are their gate rows
  `d`, `64 + d`, `128 + d`.  With gi, gh the input-side and state-side pre-activations of graph `g` at node `n`:
    the reset gate    r = σ (gi d + gh d),
    the update gate   z = σ (gi (64 + d) + gh (64 + d)),
    the candidate     c = tanh (gi (128 + d) + r · gh (128 + d)),
    the new state         (1 − z) · c + z · h d n,
  where σ is spelt one over one plus the exponential of the negation.  So the round's result at row
  `g · 2048 + n`, column `d` is one step of the encoder on the state that entered the round.
-/
import proofs.«129612_g77850577207767_cont_9to1c4b_578_26_alg».proof.Proof.Gen.ReferenceIdeal.Read
import proofs.«129612_g77850577207767_cont_9to1c4b_578_26_alg».proof.Proof.Spec
import proofs.«129612_g77850577207767_cont_9to1c4b_578_26_alg».proof.Proof.RefEmbed
import proofs.«129612_g77850577207767_cont_9to1c4b_578_26_alg».proof.Proof.RefGates1

noncomputable section

namespace Cert.GraphEnc.Ref

open Idealize.ShloMosaic Idealize.ShloMosaic.ValueIdx Cert.ReferenceIdeal Cert.ReferenceIdeal.Read Cert.GraphEnc

variable (x0 : (⟨S4x2048x2048, .f32⟩ : BufTy).Contents (Elt Ideal)) (x1 : (⟨S4x2048x128, .f32⟩ : BufTy).Contents (Elt Ideal))
  (x2 : (⟨S64x128, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 x7 : (⟨S192x64, .f32⟩ : BufTy).Contents (Elt Ideal)) (x8 x9 : (⟨S192, .f32⟩ : BufTy).Contents (Elt Ideal))

/-! ### The column slices read the three gate rows -/

theorem idx_v27_eq (r : Fin 8192) (d : Fin 64) : idx_main_v27 (ix2 r d) = ix2 r (gLo d) := by
  funext a
  match a with
  | ⟨0, _⟩ => rfl
  | ⟨1, _⟩ => rfl

theorem idx_v28_eq (r : Fin 8192) (d : Fin 64) : idx_main_v28 (ix2 r d) = ix2 r (gMid d) := by
  funext a
  match a with
  | ⟨0, _⟩ => rfl
  | ⟨1, _⟩ => rfl

theorem idx_v29_eq (r : Fin 8192) (d : Fin 64) : idx_main_v29 (ix2 r d) = ix2 r (gHi d) := by
  funext a
  match a with
  | ⟨0, _⟩ => rfl
  | ⟨1, _⟩ => rfl

theorem idx_v30_eq (r : Fin 8192) (d : Fin 64) : idx_main_v30 (ix2 r d) = ix2 r (gLo d) := by
  funext a
  match a with
  | ⟨0, _⟩ => rfl
  | ⟨1, _⟩ => rfl

theorem idx_v31_eq (r : Fin 8192) (d : Fin 64) : idx_main_v31 (ix2 r d) = ix2 r (gMid d) := by
  funext a
  match a with
  | ⟨0, _⟩ => rfl
  | ⟨1, _⟩ => rfl

theorem idx_v32_eq (r : Fin 8192) (d : Fin 64) : idx_main_v32 (ix2 r d) = ix2 r (gHi d) := by
  funext a
  match a with
  | ⟨0, _⟩ => rfl
  | ⟨1, _⟩ => rfl

/-! ### The gates -/

/-- The reset gate. -/
theorem v39_at (g : Fin 4) (n : Fin 2048) (d : Fin 64) :
    val_main_v39 (F := Ideal) x0 x1 x2 x3 x4 x5 x6 x7 x8 x9 (ix2 (rowOf g n) d)
      = Ideal.logistic (gateI (adjOf x0 g) (mat x4) (vec x5) (mat x6) (vec x8) (hid6 x1 x2 x3 g) (gLo d) n + gateH (mat x7) (vec x9) (hid6 x1 x2 x3 g) (gLo d) n) := by
  rw [val_main_v39_apply, val_main_v38_apply, val_main_cst_0_apply, val_main_v37_apply, val_main_v36_apply, val_main_cst_apply, val_main_v35_apply, val_main_v34_apply, val_main_v33_apply,
    val_main_v27_apply, val_main_v30_apply, idx_v27_eq, idx_v30_eq, v21_at, v26_at]
  exact logistic_spelt _

/-- The update gate. -/
theorem v46_at (g : Fin 4) (n : Fin 2048) (d : Fin 64) :
    val_main_v46 (F := Ideal) x0 x1 x2 x3 x4 x5 x6 x7 x8 x9 (ix2 (rowOf g n) d)
      = Ideal.logistic (gateI (adjOf x0 g) (mat x4) (vec x5) (mat x6) (vec x8) (hid6 x1 x2 x3 g) (gMid d) n + gateH (mat x7) (vec x9) (hid6 x1 x2 x3 g) (gMid d) n) := by
  rw [val_main_v46_apply, val_main_v45_apply, val_main_cst_2_apply, val_main_v44_apply, val_main_v43_apply, val_main_cst_1_apply, val_main_v42_apply, val_main_v41_apply, val_main_v40_apply,
    val_main_v28_apply, val_main_v31_apply, idx_v28_eq, idx_v31_eq, v21_at, v26_at]
  exact logistic_spelt _

/-- The round's result: one step of the encoder on the entering state. -/
theorem v54_at (g : Fin 4) (n : Fin 2048) (d : Fin 64) :
    val_main_v54 (F := Ideal) x0 x1 x2 x3 x4 x5 x6 x7 x8 x9 (ix2 (rowOf g n) d)
      = step (adjOf x0 g) (mat x4) (vec x5) (mat x6) (mat x7) (vec x8) (vec x9) (hid6 x1 x2 x3 g) d n := by
  rw [val_main_v54_apply, val_main_v52_apply, val_main_v53_apply, val_main_v51_apply, val_main_v50_apply, val_main_cst_3_apply, val_main_v49_apply, val_main_v48_apply, val_main_v47_apply,
    val_main_v29_apply, val_main_v32_apply, idx_v29_eq, idx_v32_eq, v46_at, v39_at, v21_at, v26_at]
  unfold step gru
  rfl

/-- The same at any index of the stacked array. -/
theorem v54_eq (i : S8192x64.Idx) :
    val_main_v54 (F := Ideal) x0 x1 x2 x3 x4 x5 x6 x7 x8 x9 i
      = step (adjOf x0 (gOf (i 0))) (mat x4) (vec x5) (mat x6) (mat x7) (vec x8) (vec x9) (hid6 x1 x2 x3 (gOf (i 0))) (i 1) (nOf (i 0)) :=
  (congrArg (val_main_v54 (F := Ideal) x0 x1 x2 x3 x4 x5 x6 x7 x8 x9) (row_eta i)).symm.trans
    (v54_at x0 x1 x2 x3 x4 x5 x6 x7 x8 x9 (gOf (i 0)) (nOf (i 0)) (i 1))

end Cert.GraphEnc.Ref

end
-- ==== Proof.RefGates2.lean ====
/-
  The second round of the reference program up to its two stacked pre-activations, one entry at a time.
  The state entering the round is the array left by the first round; for graph `g` it is read as feature × node,
  `h d n` = entry (row `g · 2048 + n`, column `d`).  Then, entry by entry:
    the state plus the sum over in-neighbours      is  h d n + ∑ u, h d u · A u n,
    the message layer on it                         is  relu (∑ d, Wg e d · s d n + bg e),
    the input-side pre-activation at gate row j     is  ∑ e, Wih j e · m e n + bih j,
    the state-side pre-activation at gate row j     is  ∑ e, Whh j e · h e n + bhh j.
  The program multiplies state · weightᵀ where the specification multiplies weight · state; the factors commute.
-/
import proofs.«129612_g77850577207767_cont_9to1c4b_578_26_alg».proof.Proof.Gen.ReferenceIdeal.Read
import proofs.«129612_g77850577207767_cont_9to1c4b_578_26_alg».proof.Proof.Spec
import proofs.«129612_g77850577207767_cont_9to1c4b_578_26_alg».proof.Proof.RefEmbed

noncomputable section

namespace Cert.GraphEnc.Ref

open Idealize.ShloMosaic Idealize.ShloMosaic.ValueIdx Cert.ReferenceIdeal Cert.ReferenceIdeal.Read Cert.GraphEnc

variable (x0 : (⟨S4x2048x2048, .f32⟩ : BufTy).Contents (Elt Ideal)) (x1 : (⟨S4x2048x128, .f32⟩ : BufTy).Contents (Elt Ideal))
  (x2 : (⟨S64x128, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 x7 : (⟨S192x64, .f32⟩ : BufTy).Contents (Elt Ideal)) (x8 x9 : (⟨S192, .f32⟩ : BufTy).Contents (Elt Ideal))

/-- The state entering the round, for graph `g`, as feature × node. -/
abbrev hid54 (g : Fin 4) : Hid := fun d n => val_main_v54 (F := Ideal) x0 x1 x2 x3 x4 x5 x6 x7 x8 x9 (ix2 (rowOf g n) d)

/-! ### Where each layout stage reads -/

theorem idx_v55_eq (g : Fin 4) (u : Fin 2048) (d : Fin 64) : idx_main_v55 (ix3 g u d) = ix2 (rowOf g u) d := by
  funext a
  match a with
  | ⟨0, _⟩ => exact Fin.ext (by show ((g.val * 2048 + u.val) * 64 + d.val) / 64 = g.val * 2048 + u.val; omega)
  | ⟨1, _⟩ => exact Fin.ext (by show ((g.val * 2048 + u.val) * 64 + d.val) % 64 = d.val; omega)

theorem lidx_v56_eq (g : Fin 4) (v : Fin 2048) (d : Fin 64) (k : Fin 2048) : lidx_main_v56 (ix3 g v d) k = ix3 g k v := by
  funext a
  match a with
  | ⟨0, _⟩ => rfl
  | ⟨1, _⟩ => rfl
  | ⟨2, _⟩ => rfl

theorem ridx_v56_eq (g : Fin 4) (v : Fin 2048) (d : Fin 64) (k : Fin 2048) : ridx_main_v56 (ix3 g v d) k = ix3 g k d := by
  funext a
  match a with
  | ⟨0, _⟩ => rfl
  | ⟨1, _⟩ => rfl
  | ⟨2, _⟩ => rfl

theorem idx_v57_eq (g : Fin 4) (n : Fin 2048) (d : Fin 64) : idx_main_v57 (ix2 (rowOf g n) d) = ix3 g n d := by
  funext a
  match a with
  | ⟨0, _⟩ => exact Fin.ext (by show ((g.val * 2048 + n.val) * 64 + d.val) / 131072 = g.val; omega)
  | ⟨1, _⟩ => exact Fin.ext (by show ((g.val * 2048 + n.val) * 64 + d.val) / 64 % 2048 = n.val; omega)
  | ⟨2, _⟩ => exact Fin.ext (by show ((g.val * 2048 + n.val) * 64 + d.val) % 64 = d.val; omega)

theorem lidx_v60_eq (r : Fin 8192) (e k : Fin 64) : lidx_main_v60 (ix2 r e) k = ix2 r k := by
  funext a
  match a with
  | ⟨0, _⟩ => rfl
  | ⟨1, _⟩ => rfl

theorem ridx_v60_eq (r : Fin 8192) (e k : Fin 64) : idx_main_v59 (ridx_main_v60 (ix2 r e) k) = ix2 e k := by
  funext a
  match a with
  | ⟨0, _⟩ => rfl
  | ⟨1, _⟩ => rfl

theorem idx_v61_eq (r : Fin 8192) (e : Fin 64) : idx_main_v61 (idx_main_v62 (ix2 r e)) = ix1 e := by
  funext a
  match a with
  | ⟨0, _⟩ => rfl

theorem lidx_v66_eq (r : Fin 8192) (j : Fin 192) (k : Fin 64) : lidx_main_v66 (ix2 r j) k = ix2 r k := by
  funext a
  match a with
  | ⟨0, _⟩ => rfl
  | ⟨1, _⟩ => rfl

theorem ridx_v66_eq (r : Fin 8192) (j : Fin 192) (k : Fin 64) : idx_main_v65 (ridx_main_v66 (ix2 r j) k) = ix2 j k := by
  funext a
  match a with
  | ⟨0, _⟩ => rfl
  | ⟨1, _⟩ => rfl

theorem idx_v67_eq (r : Fin 8192) (j : Fin 192) : idx_main_v67 (idx_main_v68 (ix2 r j)) = ix1 j := by
  funext a
  match a with
  | ⟨0, _⟩ => rfl

theorem lidx_v71_eq (r : Fin 8192) (j : Fin 192) (k : Fin 64) : lidx_main_v71 (ix2 r j) k = ix2 r k := by
  funext a
  match a with
  | ⟨0, _⟩ => rfl
  | ⟨1, _⟩ => rfl

theorem ridx_v71_eq (r : Fin 8192) (j : Fin 192) (k : Fin 64) : idx_main_v70 (ridx_main_v71 (ix2 r j) k) = ix2 j k := by
  funext a
  match a with
  | ⟨0, _⟩ => rfl
  | ⟨1, _⟩ => rfl

theorem idx_v72_eq (r : Fin 8192) (j : Fin 192) : idx_main_v72 (idx_main_v73 (ix2 r j)) = ix1 j := by
  funext a
  match a with
  | ⟨0, _⟩ => rfl

/-! ### The four layers -/

/-- The state plus its sum over in-neighbours. -/
theorem v58_at (g : Fin 4) (n : Fin 2048) (d : Fin 64) :
    val_main_v58 (F := Ideal) x0 x1 x2 x3 x4 x5 x6 x7 x8 x9 (ix2 (rowOf g n) d) = hid54 x0 x1 x2 x3 x4 x5 x6 x7 x8 x9 g d n + agg (adjOf x0 g) (hid54 x0 x1 x2 x3 x4 x5 x6 x7 x8 x9 g) d n := by
  rw [val_main_v58_apply, val_main_v57_apply, idx_v57_eq, val_main_v56_apply]
  simp only [lidx_v56_eq, ridx_v56_eq, val_main_v55_apply, idx_v55_eq]
  show val_main_v54 (F := Ideal) x0 x1 x2 x3 x4 x5 x6 x7 x8 x9 (ix2 (rowOf g n) d) + ∑ k : Fin 2048, x0 (ix3 g k n) * val_main_v54 (F := Ideal) x0 x1 x2 x3 x4 x5 x6 x7 x8 x9 (ix2 (rowOf g k) d) = _
  unfold agg
  congr 1
  exact Finset.sum_congr rfl fun k _ => mul_comm _ _

/-- The message layer. -/
theorem v64_at (g : Fin 4) (n : Fin 2048) (e : Fin 64) :
    val_main_v64 (F := Ideal) x0 x1 x2 x3 x4 x5 x6 x7 x8 x9 (ix2 (rowOf g n) e)
      = msg (mat x4) (vec x5) (fun d v => hid54 x0 x1 x2 x3 x4 x5 x6 x7 x8 x9 g d v + agg (adjOf x0 g) (hid54 x0 x1 x2 x3 x4 x5 x6 x7 x8 x9 g) d v) e n := by
  rw [val_main_v64_apply, val_main_v63_apply, val_main_v60_apply, val_main_v62_apply, val_main_v61_apply, val_main_call2_v0_apply, val_main_call2_cst_apply, idx_v61_eq]
  simp only [lidx_v60_eq, val_main_v59_apply, ridx_v60_eq, v58_at]
  show max ((∑ k : Fin 64, (hid54 x0 x1 x2 x3 x4 x5 x6 x7 x8 x9 g k n + agg (adjOf x0 g) (hid54 x0 x1 x2 x3 x4 x5 x6 x7 x8 x9 g) k n) * x4 (ix2 e k)) + x5 (ix1 e)) zeroW = _
  unfold msg relu
  congr 2
  exact Finset.sum_congr rfl fun k _ => mul_comm _ _

/-- The input-side pre-activation at gate row `j`. -/
theorem v69_at (g : Fin 4) (n : Fin 2048) (j : Fin 192) :
    val_main_v69 (F := Ideal) x0 x1 x2 x3 x4 x5 x6 x7 x8 x9 (ix2 (rowOf g n) j)
      = gateI (adjOf x0 g) (mat x4) (vec x5) (mat x6) (vec x8) (hid54 x0 x1 x2 x3 x4 x5 x6 x7 x8 x9 g) j n := by
  rw [val_main_v69_apply, val_main_v66_apply, val_main_v68_apply, val_main_v67_apply, idx_v67_eq]
  simp only [lidx_v66_eq, val_main_v65_apply, ridx_v66_eq, v64_at]
  show (∑ k : Fin 64, msg (mat x4) (vec x5) (fun d v => hid54 x0 x1 x2 x3 x4 x5 x6 x7 x8 x9 g d v + agg (adjOf x0 g) (hid54 x0 x1 x2 x3 x4 x5 x6 x7 x8 x9 g) d v) k n * x6 (ix2 j k)) + x8 (ix1 j) = _
  unfold gateI lin3
  congr 1
  exact Finset.sum_congr rfl fun k _ => mul_comm _ _

/-- The state-side pre-activation at gate row `j`. -/
theorem v74_at (g : Fin 4) (n : Fin 2048) (j : Fin 192) :
    val_main_v74 (F := Ideal) x0 x1 x2 x3 x4 x5 x6 x7 x8 x9 (ix2 (rowOf g n) j) = gateH (mat x7) (vec x9) (hid54 x0 x1 x2 x3 x4 x5 x6 x7 x8 x9 g) j n := by
  rw [val_main_v74_apply, val_main_v71_apply, val_main_v73_apply, val_main_v72_apply, idx_v72_eq]
  simp only [lidx_v71_eq, val_main_v70_apply, ridx_v71_eq]
  show (∑ k : Fin 64, hid54 x0 x1 x2 x3 x4 x5 x6 x7 x8 x9 g k n * x7 (ix2 j k)) + x9 (ix1 j) = _
  unfold gateH lin3
  congr 1
  exact Finset.sum_congr rfl fun k _ => mul_comm _ _

end Cert.GraphEnc.Ref

end
-- ==== Proof.RefStep2.lean ====
/-
  The gated update that closes the second round of the reference program, one entry at a time.
  The six column slices at offsets 0, 64 and 128 of the two stacked pre-activations are their gate rows
  `d`, `64 + d`, `128 + d`.  With gi, gh the input-side and state-side pre-activations of graph `g` at node `n`:
    the reset gate    r = σ (gi d + gh d),
    the update gate   z = σ (gi (64 + d) + gh (64 + d)),
    the candidate     c = tanh (gi (128 + d) + r · gh (128 + d)),
    the new state         (1 − z) · c + z · h d n,
  where σ is spelt one over one plus the exponential of the negation.  So the round's result at row
  `g · 2048 + n`, column `d` is one step of the encoder on the state that entered the round.
-/
import proofs.«129612_g77850577207767_cont_9to1c4b_578_26_alg».proof.Proof.Gen.ReferenceIdeal.Read
import proofs.«129612_g77850577207767_cont_9to1c4b_578_26_alg».proof.Proof.Spec
import proofs.«129612_g77850577207767_cont_9to1c4b_578_26_alg».proof.Proof.RefEmbed
import proofs.«129612_g77850577207767_cont_9to1c4b_578_26_alg».proof.Proof.RefGates2

noncomputable section

namespace Cert.GraphEnc.Ref

open Idealize.ShloMosaic Idealize.ShloMosaic.ValueIdx Cert.ReferenceIdeal Cert.ReferenceIdeal.Read Cert.GraphEnc

variable (x0 : (⟨S4x2048x2048, .f32⟩ : BufTy).Contents (Elt Ideal)) (x1 : (⟨S4x2048x128, .f32⟩ : BufTy).Contents (Elt Ideal))
  (x2 : (⟨S64x128, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 x7 : (⟨S192x64, .f32⟩ : BufTy).Contents (Elt Ideal)) (x8 x9 : (⟨S192, .f32⟩ : BufTy).Contents (Elt Ideal))

/-! ### The column slices read the three gate rows -/

theorem idx_v75_eq (r : Fin 8192) (d : Fin 64) : idx_main_v75 (ix2 r d) = ix2 r (gLo d) := by
  funext a
  match a with
  | ⟨0, _⟩ => rfl
  | ⟨1, _⟩ => rfl

theorem idx_v76_eq (r : Fin 8192) (d : Fin 64) : idx_main_v76 (ix2 r d) = ix2 r (gMid d) := by
  funext a
  match a with
  | ⟨0, _⟩ => rfl
  | ⟨1, _⟩ => rfl

theorem idx_v77_eq (r : Fin 8192) (d : Fin 64) : idx_main_v77 (ix2 r d) = ix2 r (gHi d) := by
  funext a
  match a with
  | ⟨0, _⟩ => rfl
  | ⟨1, _⟩ => rfl

theorem idx_v78_eq (r : Fin 8192) (d : Fin 64) : idx_main_v78 (ix2 r d) = ix2 r (gLo d) := by
  funext a
  match a with
  | ⟨0, _⟩ => rfl
  | ⟨1, _⟩ => rfl

theorem idx_v79_eq (r : Fin 8192) (d : Fin 64) : idx_main_v79 (ix2 r d) = ix2 r (gMid d) := by
  funext a
  match a with
  | ⟨0, _⟩ => rfl
  | ⟨1, _⟩ => rfl

theorem idx_v80_eq (r : Fin 8192) (d : Fin 64) : idx_main_v80 (ix2 r d) = ix2 r (gHi d) := by
  funext a
  match a with
  | ⟨0, _⟩ => rfl
  | ⟨1, _⟩ => rfl

/-! ### The gates -/

/-- The reset gate. -/
theorem v87_at (g : Fin 4) (n : Fin 2048) (d : Fin 64) :
    val_main_v87 (F := Ideal) x0 x1 x2 x3 x4 x5 x6 x7 x8 x9 (ix2 (rowOf g n) d)
      = Ideal.logistic (gateI (adjOf x0 g) (mat x4) (vec x5) (mat x6) (vec x8) (hid54 x0 x1 x2 x3 x4 x5 x6 x7 x8 x9 g) (gLo d) n + gateH (mat x7) (vec x9) (hid54 x0 x1 x2 x3 x4 x5 x6 x7 x8 x9 g) (gLo d) n) := by
  rw [val_main_v87_apply, val_main_v86_apply, val_main_cst_5_apply, val_main_v85_apply, val_main_v84_apply, val_main_cst_4_apply, val_main_v83_apply, val_main_v82_apply, val_main_v81_apply,
    val_main_v75_apply, val_main_v78_apply, idx_v75_eq, idx_v78_eq, v69_at, v74_at]
  exact logistic_spelt _

/-- The update gate. -/
theorem v94_at (g : Fin 4) (n : Fin 2048) (d : Fin 64) :
    val_main_v94 (F := Ideal) x0 x1 x2 x3 x4 x5 x6 x7 x8 x9 (ix2 (rowOf g n) d)
      = Ideal.logistic (gateI (adjOf x0 g) (mat x4) (vec x5) (mat x6) (vec x8) (hid54 x0 x1 x2 x3 x4 x5 x6 x7 x8 x9 g) (gMid d) n + gateH (mat x7) (vec x9) (hid54 x0 x1 x2 x3 x4 x5 x6 x7 x8 x9 g) (gMid d) n) := by
  rw [val_main_v94_apply, val_main_v93_apply, val_main_cst_7_apply, val_main_v92_apply, val_main_v91_apply, val_main_cst_6_apply, val_main_v90_apply, val_main_v89_apply, val_main_v88_apply,
    val_main_v76_apply, val_main_v79_apply, idx_v76_eq, idx_v79_eq, v69_at, v74_at]
  exact logistic_spelt _

/-- The round's result: one step of the encoder on the entering state. -/
theorem v102_at (g : Fin 4) (n : Fin 2048) (d : Fin 64) :
    val_main_v102 (F := Ideal) x0 x1 x2 x3 x4 x5 x6 x7 x8 x9 (ix2 (rowOf g n) d)
      = step (adjOf x0 g) (mat x4) (vec x5) (mat x6) (mat x7) (vec x8) (vec x9) (hid54 x0 x1 x2 x3 x4 x5 x6 x7 x8 x9 g) d n := by
  rw [val_main_v102_apply, val_main_v100_apply, val_main_v101_apply, val_main_v99_apply, val_main_v98_apply, val_main_cst_8_apply, val_main_v97_apply, val_main_v96_apply, val_main_v95_apply,
    val_main_v77_apply, val_main_v80_apply, idx_v77_eq, idx_v80_eq, v94_at, v87_at, v69_at, v74_at]
  unfold step gru
  rfl

/-- The same at any index of the stacked array. -/
theorem v102_eq (i : S8192x64.Idx) :
    val_main_v102 (F := Ideal) x0 x1 x2 x3 x4 x5 x6 x7 x8 x9 i
      = step (adjOf x0 (gOf (i 0))) (mat x4) (vec x5) (mat x6) (mat x7) (vec x8) (vec x9) (hid54 x0 x1 x2 x3 x4 x5 x6 x7 x8 x9 (gOf (i 0))) (i 1) (nOf (i 0)) :=
  (congrArg (val_main_v102 (F := Ideal) x0 x1 x2 x3 x4 x5 x6 x7 x8 x9) (row_eta i)).symm.trans
    (v102_at x0 x1 x2 x3 x4 x5 x6 x7 x8 x9 (gOf (i 0)) (nOf (i 0)) (i 1))

end Cert.GraphEnc.Ref

end
-- ==== Proof.RefValue.lean ====
/-
  The reference program's result, stage by stage, is the specification's `result` of its arguments.
  Three layers: the input layer leaves the embedding of every node; the first round leaves one step of the
  encoder on that; the second round leaves one step on the first round's state.  Read per graph as
  feature × node these compose to the encoder, and the stacked array lists it row by row.
-/
import proofs.«129612_g77850577207767_cont_9to1c4b_578_26_alg».proof.Proof.Gen.ReferenceIdeal.Read
import proofs.«129612_g77850577207767_cont_9to1c4b_578_26_alg».proof.Proof.Spec
import proofs.«129612_g77850577207767_cont_9to1c4b_578_26_alg».proof.Proof.RefEmbed
import proofs.«129612_g77850577207767_cont_9to1c4b_578_26_alg».proof.Proof.RefGates1
import proofs.«129612_g77850577207767_cont_9to1c4b_578_26_alg».proof.Proof.RefStep1
import proofs.«129612_g77850577207767_cont_9to1c4b_578_26_alg».proof.Proof.RefGates2
import proofs.«129612_g77850577207767_cont_9to1c4b_578_26_alg».proof.Proof.RefStep2

noncomputable section

namespace Cert.GraphEnc.Ref

open Idealize.ShloMosaic Idealize.ShloMosaic.ValueIdx Cert.ReferenceIdeal Cert.ReferenceIdeal.Read Cert.GraphEnc

/-- The state after the input layer, per graph, is the embedding. -/
theorem hid6_eq (x1 : (⟨S4x2048x128, .f32⟩ : BufTy).Contents (Elt Ideal))
    (x2 : (⟨S64x128, .f32⟩ : BufTy).Contents (Elt Ideal)) (x3 : (⟨S64, .f32⟩ : BufTy).Contents (Elt Ideal)) (g : Fin 4) :
    hid6 x1 x2 x3 g = embed (mat x2) (vec x3) (featOf x1 g) :=
  funext fun d => funext fun n => v6_at x1 x2 x3 g n d

/-- The state after the first round, per graph, is one step on the state after the input layer. -/
theorem hid54_eq (x0 : (⟨S4x2048x2048, .f32⟩ : BufTy).Contents (Elt Ideal)) (x1 : (⟨S4x2048x128, .f32⟩ : BufTy).Contents (Elt Ideal))
    (x2 : (⟨S64x128, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 x7 : (⟨S192x64, .f32⟩ : BufTy).Contents (Elt Ideal)) (x8 x9 : (⟨S192, .f32⟩ : BufTy).Contents (Elt Ideal)) (g : Fin 4) :
    hid54 x0 x1 x2 x3 x4 x5 x6 x7 x8 x9 g
      = step (adjOf x0 g) (mat x4) (vec x5) (mat x6) (mat x7) (vec x8) (vec x9) (hid6 x1 x2 x3 g) :=
  funext fun d => funext fun n => v54_at x0 x1 x2 x3 x4 x5 x6 x7 x8 x9 g n d

/-- The last stage of the reference, as a function of the ten arguments, is the encoder's result array. -/
theorem ref_result (x0 : (⟨S4x2048x2048, .f32⟩ : BufTy).Contents (Elt Ideal)) (x1 : (⟨S4x2048x128, .f32⟩ : BufTy).Contents (Elt Ideal))
    (x2 : (⟨S64x128, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 x7 : (⟨S192x64, .f32⟩ : BufTy).Contents (Elt Ideal)) (x8 x9 : (⟨S192, .f32⟩ : BufTy).Contents (Elt Ideal)) :
    val_main_v102 (F := Ideal) x0 x1 x2 x3 x4 x5 x6 x7 x8 x9 = result x0 x1 x2 x3 x4 x5 x6 x7 x8 x9 := by
  funext i
  rw [v102_eq, hid54_eq, hid6_eq]
  rfl

end Cert.GraphEnc.Ref

end
-- ==== Proof.lean ====
/-
  A graph encoder on a batch of four 2048-node graphs — a linear embedding with relu, then two
  rounds of neighbour summation, a relu message layer and a gated recurrent update — computed
  by one fused kernel per graph in a feature × node layout, against the plain node × feature
  formulation.

  On the extended reals both programs compute the same function of the ten argument arrays,
  the specification's `result`: entry [g · 2048 + n, d] is feature `d` of node `n` of graph `g`
  after the two rounds.  The kernel side: every grid point's body computes the encoder of its
  graph from the blocks it is handed, the four written-back blocks tile the region's output,
  and the host's final transpose and reshape lay it out by rows.  The reference side: its
  stages read one at a time are the same layers, with each matrix product's factors in the
  other order (multiplication of extended reals commutes) and the logistic function spelt as
  1 / (1 + exp (−x)), which is its definition.  Nothing else differs: a change of float format
  is the identity here and both sides use the same words for 0 and 1.  No law needs the inputs
  finite, so the precondition is never opened.
-/
import proofs.«129612_g77850577207767_cont_9to1c4b_578_26_alg».proof.Defs
import proofs.«129612_g77850577207767_cont_9to1c4b_578_26_alg».proof.Proof.Gen.Kernel
import proofs.«129612_g77850577207767_cont_9to1c4b_578_26_alg».proof.Proof.Gen.Kernel.Skeleton
import proofs.«129612_g77850577207767_cont_9to1c4b_578_26_alg».proof.Proof.Gen.Kernel.Launch
import proofs.«129612_g77850577207767_cont_9to1c4b_578_26_alg».proof.Proof.Gen.Kernel.Points
import proofs.«129612_g77850577207767_cont_9to1c4b_578_26_alg».proof.Proof.Gen.Kernel.Frame
import proofs.«129612_g77850577207767_cont_9to1c4b_578_26_alg».proof.Proof.Gen.KernelIdeal
import proofs.«129612_g77850577207767_cont_9to1c4b_578_26_alg».proof.Proof.Gen.KernelIdeal.Skeleton
import proofs.«129612_g77850577207767_cont_9to1c4b_578_26_alg».proof.Proof.Gen.KernelIdeal.Launch
import proofs.«129612_g77850577207767_cont_9to1c4b_578_26_alg».proof.Proof.Gen.KernelIdeal.Points
import proofs.«129612_g77850577207767_cont_9to1c4b_578_26_alg».proof.Proof.Gen.KernelIdeal.Frame
import proofs.«129612_g77850577207767_cont_9to1c4b_578_26_alg».proof.Proof.Gen.ReferenceIdeal
import proofs.«129612_g77850577207767_cont_9to1c4b_578_26_alg».proof.Proof.Gen.Pre_finite_inputs
import proofs.«129612_g77850577207767_cont_9to1c4b_578_26_alg».proof.Proof.Gen.ReferenceIdeal.Run
import proofs.«129612_g77850577207767_cont_9to1c4b_578_26_alg».proof.Proof.Gen.ReferenceIdeal.Read
import proofs.«129612_g77850577207767_cont_9to1c4b_578_26_alg».proof.Proof.KernelArray
import proofs.«129612_g77850577207767_cont_9to1c4b_578_26_alg».proof.Proof.RefValue
import Idealize.ShloMosaic.Adequacy
import Idealize.ShloMosaic.Init

noncomputable section

namespace Cert.Proof

open Idealize.ShloMosaic Idealize.SL.Sem Cert.GraphEnc

/-- The reference terminates with its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the specification's result array of the shared arguments. -/
theorem algebraic : Cert.algebraic_KernelIdeal_ReferenceIdeal := by
  intro m ρ m' ρ' _ hagree
  refine ⟨_, Cert.GraphEnc.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v102_eq, Cert.GraphEnc.Ref.ref_result, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
